-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x32 .f32) (main_arg3 : FVec F S32 .f32) (main_arg4 : FVec F S32x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S2x10000x16 : Shape := ⟨3, ![2, 10000, 16]⟩
abbrev S400x10000 : Shape := ⟨2, ![400, 10000]⟩
abbrev S1x400x16 : Shape := ⟨3, ![1, 400, 16]⟩
abbrev S10000x32 : Shape := ⟨2, ![10000, 32]⟩
abbrev S10000x16 : Shape := ⟨2, ![10000, 16]⟩
abbrev S400x32 : Shape := ⟨2, ![400, 32]⟩
abbrev S400x16 : Shape := ⟨2, ![400, 16]⟩
abbrev S400 : Shape := ⟨1, ![400]⟩
abbrev S400x1 : Shape := ⟨2, ![400, 1]⟩
abbrev S1x10000x16 : Shape := ⟨3, ![1, 10000, 16]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S2x10000x16, .f32⟩
  | .hbm, ⟨9, _⟩ => ⟨S1x10000x16, .f32⟩
  | .hbm, ⟨10, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x32, .f32⟩
  | .local _ .vmem, ⟨4, _⟩ => ⟨S1x32, .f32⟩
  | .local _ .vmem, ⟨5, _⟩ => ⟨S32x16, .f32⟩
  | .local _ .vmem, ⟨6, _⟩ => ⟨S1x16, .f32⟩
  | .local _ .vmem, ⟨7, _⟩ => ⟨S1x400x16, .f32⟩
  | .local _ .vmem, ⟨8, _⟩ => ⟨S1x400x16, .f32⟩
  | .local _ .vmem, ⟨9, _⟩ => ⟨S10000x32, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v24 : BitVec 32 := Scalar.muli arg1 c400_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x16_S32x16_0_0 : ∀ a, (![0, 0] : Fin 2 → Nat) a + S32x16.size a ≤ S32x16.size a
  h_S32x16 : 0 < S32x16.numel
  h_S400x16 : 0 < S400x16.numel
  shapeCasts_S400x16_S400x16 : S400x16.ShapeCasts S400x16
  inb_S1x400x16_S1x400x16_0_0_0 : ∀ a, (![0, 0, 0] : Fin 3 → Nat) a + S1x400x16.size a ≤ S1x400x16.size a
  h_S1x400x16 : 0 < S1x400x16.numel
  shapeCasts_S1x400x16_S400x16 : S1x400x16.ShapeCasts S400x16
  shapeCasts_S400x16_S1x400x16 : S400x16.ShapeCasts S1x400x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  slices_S2x10000x16_S1x10000x16_1_0_0 : S2x10000x16.Slices ![1, 0, 0] S1x10000x16
  shapeCasts_S1x10000x16_S10000x16 : S1x10000x16.ShapeCasts S10000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x400x16.size a ≤ S2x10000x16.size a
  hwx0_6 : ∀ i : grid0.Coords, EltTy.bits .f32 = 32 ∨ (Rect.block (s := S2x10000x16) S1x400x16.size (cc0_transform_6 i) (hinb0_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) && !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S10000x32 : Shape := ⟨2, ![10000, 32]⟩
abbrev S1x32 : Shape := ⟨2, ![1, 32]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S10000x32, .f32⟩
  | .hbm, ⟨7, _⟩ => ⟨S10000x32, .f32⟩
  | .hbm, ⟨8, _⟩ => ⟨S1x32, .f32⟩
  | .hbm, ⟨9, _⟩ => ⟨S10000x32, .f32⟩
  | .hbm, ⟨10, _⟩ => ⟨S10000x32, .f32⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S_, .f32⟩
  | .hbm, ⟨20, _⟩ => ⟨S10000x16, .f32⟩
  | .hbm, ⟨21, _⟩ => ⟨S10000x16, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x16, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1, .f32⟩
  | .hbm, ⟨35, _⟩ => ⟨S10000x16, .f32⟩
  | .hbm, ⟨36, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩
abbrev main_call2_cst : Ref sig .tc := ⟨.hbm, 22, rfl⟩
abbrev main_call2_v0 : Ref sig .tc := ⟨.hbm, 23, rfl⟩
abbrev main_call2_cst_0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_cst_1 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_v12 : Ref sig .tc := ⟨.hbm, 36, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KSetup.lean ====
/-
  The grid of the fused kernel is 2 phases × 25 row blocks, visited in order: point t is phase t / 25, row block t % 25.
  The body has three conditionals on the coordinates: "first point" (phase 0 and block 0: the feature transform is
  computed into the first scratch), "phase 0" (a row block of the first layer is computed into its slice of the second
  scratch and into the output block) and "phase 1" (a row block of the second layer and its log-softmax go to the output
  block). Here: the three conditions in closed form over the grid, the fact that no window is ever idle, and names for the
  staging memrefs and the two scratch memrefs the body is called with.
-/
import proofs.«125999_g90108413870386_cont_sun_c4_37_7_alg».proof.Proof.Gen.Kernel.Frame
import proofs.«125999_g90108413870386_cont_sun_c4_37_7_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- "Phase 0 and row block 0", as the body computes it from the coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem isFirst_iff : ∀ t : Fin cfg0.N, isFirst (grid0.coords t) ↔ t.val = 0 :=
  (by decide +kernel : ∀ t : Fin grid0.N, isFirst (grid0.coords t) ↔ t.val = 0)

/-- "Phase 0". -/
abbrev inPhase0 (i : grid0.Coords) : Prop := k0_cond2 i = 1#1
/-- It holds at the first 25 points. -/
theorem inPhase0_iff : ∀ t : Fin cfg0.N, inPhase0 (grid0.coords t) ↔ t.val < 25 :=
  (by decide +kernel : ∀ t : Fin grid0.N, inPhase0 (grid0.coords t) ↔ t.val < 25)

/-- "Phase 1". -/
abbrev inPhase1 (i : grid0.Coords) : Prop := k0_cond3 i = 1#1
/-- It holds at the last 25 points. -/
theorem inPhase1_iff : ∀ t : Fin cfg0.N, inPhase1 (grid0.coords t) ↔ 25 ≤ t.val :=
  (by decide +kernel : ∀ t : Fin grid0.N, inPhase1 (grid0.coords t) ↔ 25 ≤ t.val)

/-- The row block of point `t` is `t % 25`. -/
theorem coords_block : ∀ t : Fin cfg0.N, ((grid0.coords t) 1).val = t.val % 25 :=
  (by decide +kernel : ∀ t : Fin grid0.N, ((grid0.coords t) 1).val = t.val % 25)

/-! ## No window is idle at any point -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- The output block is stored at every point (in phase 0 the first layer's block, in phase 1 the result's). -/
theorem live_6 : ∀ t : Fin cfg0.N, cfg0.idle 6 (grid0.coords t) = false := by decide +kernel

/-! ## The memrefs the body is called with -/

abbrev mX (t : Fin cfg0.N) : Memref sig .tc .vmem S10000x128 .f32 := win0_0.stage (cfg0.slots t 0)
abbrev hX (t : Fin cfg0.N) : (mX t).IsWhole := hstage0_0 ((cfg0.slots t 0).cast nbuf0_0)
abbrev mAdj (t : Fin cfg0.N) : Memref sig .tc .vmem S400x10000 .f32 := win0_1.stage (cfg0.slots t 1)
abbrev hAdj (t : Fin cfg0.N) : (mAdj t).IsWhole := hstage0_1 ((cfg0.slots t 1).cast nbuf0_1)
abbrev mW1 (t : Fin cfg0.N) : Memref sig .tc .vmem S128x32 .f32 := win0_2.stage (cfg0.slots t 2)
abbrev hW1 (t : Fin cfg0.N) : (mW1 t).IsWhole := hstage0_2 ((cfg0.slots t 2).cast nbuf0_2)
abbrev mB1 (t : Fin cfg0.N) : Memref sig .tc .vmem S1x32 .f32 := win0_3.stage (cfg0.slots t 3)
abbrev hB1 (t : Fin cfg0.N) : (mB1 t).IsWhole := hstage0_3 ((cfg0.slots t 3).cast nbuf0_3)
abbrev mW2 (t : Fin cfg0.N) : Memref sig .tc .vmem S32x16 .f32 := win0_4.stage (cfg0.slots t 4)
abbrev hW2 (t : Fin cfg0.N) : (mW2 t).IsWhole := hstage0_4 ((cfg0.slots t 4).cast nbuf0_4)
abbrev mB2 (t : Fin cfg0.N) : Memref sig .tc .vmem S1x16 .f32 := win0_5.stage (cfg0.slots t 5)
abbrev hB2 (t : Fin cfg0.N) : (mB2 t).IsWhole := hstage0_5 ((cfg0.slots t 5).cast nbuf0_5)
abbrev mOut (t : Fin cfg0.N) : Memref sig .tc .vmem S1x400x16 .f32 := win0_6.stage (cfg0.slots t 6)
abbrev hOut (t : Fin cfg0.N) : (mOut t).IsWhole := hstage0_6 ((cfg0.slots t 6).cast nbuf0_6)
/-- The scratch that keeps the feature transform `x · W1` (10000 × 32) for the whole of phase 0. -/
abbrev mY : Memref sig .tc .vmem S10000x32 .f32 := Memref.whole cc0_scratch0
abbrev hY : (mY).IsWhole := Memref.isWhole_whole _
/-- The scratch the first layer's row blocks are collected in (10000 × 16), read whole in phase 1. -/
abbrev mZ : Memref sig .tc .vmem S10000x16 .f32 := Memref.whole cc0_scratch1
abbrev hZ : (mZ).IsWhole := Memref.isWhole_whole _

/-- What the launch hands the region beside the windows: the two scratch buffers at some contents and the generator
    register at some state. -/
theorem PhiA_eq (c : Dev nD) :
    (Pipeline.ΦA spec0 c : sProp 𝕄)
      = iprop(iprop((∃ d, owns (c : Thread nD τ) mY fullShare d) ∗ (∃ d, owns (c : Thread nD τ) mZ fullShare d)) ∗ (∃ r, prngReg c r)) := by
  unfold Pipeline.ΦA; rw [scopedRest0_eq]; simp only [mY, mZ, owns_whole]; try rfl

end Cert.Kernel.Hand

end
-- ==== Proof.KData.lean ====
/-
  What the region computes, point by point, as data for the pipeline's frame.

  The first scratch holds the feature transform `x · W1` from the first point on (`yAll`). The second scratch is
  filled 400 rows per point during phase 0: after `n` points its rows below `400 · min n 25` are the first layer's
  rows (`zAll`: row `r` belongs to block `r / 400`, computed from that block's adjacency rows), the rows above hold
  whatever they held (`ZFilled`). The output block written back at point `t` is the first layer's block in phase 0 and
  the second layer's log-softmax block in phase 1 (`outAt`). The inputs' staging buffers hold their blocks throughout.
-/
import proofs.«125999_g90108413870386_cont_sun_c4_37_7_alg».proof.Proof.KSetup
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- Point `k` of the grid, for `k < 50`. -/
abbrev pt (k : ℕ) (hk : k < 50) : Fin cfg0.N := ⟨k, lt_of_lt_of_eq hk N50.symm⟩

/-- The feature transform `x · W1`, from the blocks of `x` and `W1` at the first point (they are the whole arrays at every point). -/
def yAll (c : Dev nD) : Vec F S10000x32 .f32 := k0_pay1 (iblk m c 0 (pt 0 (by omega))) (iblk m c 2 (pt 0 (by omega)))

/-- The first layer's 400 rows of row block `k`: from the adjacency's rows of that block, the feature transform, the bias row and `W2`. -/
def zBlk (c : Dev nD) (k : ℕ) (hk : k < 25) : Vec F S400x16 .f32 :=
  k0_pay3 (iblk m c 1 (pt k (by omega))) (yAll m c) (iblk m c 3 (pt k (by omega))) (iblk m c 4 (pt k (by omega)))

/-- The first layer, all 10000 rows: row `r` is row `r % 400` of block `r / 400`. -/
def zAll (c : Dev nD) : Vec F S10000x16 .f32 := fun y =>
  zBlk m c ((y 0).val / 400) (by have := ValueIdx.idx2_lt0 y; omega)
    (ValueIdx.ix2 ⟨(y 0).val % 400, Nat.mod_lt _ (by omega)⟩ ⟨(y 1).val, ValueIdx.idx2_lt1 y⟩)

/-- After `n` points the second scratch `d` holds the first layer on its rows below `400 · min n 25`. -/
def ZFilled (c : Dev nD) (n : ℕ) (d : Vec F S10000x16 .f32) : Prop :=
  ∀ y : S10000x16.Idx, (y 0).val < 400 * min n 25 → d y = zAll m c y

/-- Once phase 0 is over the second scratch IS the first layer. -/
theorem ZFilled.eq_zAll {c : Dev nD} {n : ℕ} {d : Vec F S10000x16 .f32} (h : ZFilled m c n d) (hn : 25 ≤ n) : d = zAll m c :=
  funext fun y => h y (by have := ValueIdx.idx2_lt0 y; rw [Nat.min_eq_right hn]; omega)

theorem ZFilled.of_eq (c : Dev nD) (n : ℕ) : ZFilled m c n (zAll m c) := fun _ _ => rfl

/-- The output block the body leaves at point `t`: in phase 0 the first layer's block (with a leading unit axis), in
    phase 1 the log-softmax of the second layer's block, which reads the whole first layer. -/
def outAt (c : Dev nD) (t : Fin cfg0.N) : Vec F S1x400x16 .f32 :=
  if t.val < 25 then k0_pay4 (iblk m c 1 t) (yAll m c) (iblk m c 3 t) (iblk m c 4 t)
  else k0_pay5 (iblk m c 1 t) (zAll m c) (iblk m c 5 t)

theorem outAt_phase0 (c : Dev nD) (t : Fin cfg0.N) (h : t.val < 25) :
    outAt m c t = k0_pay4 (iblk m c 1 t) (yAll m c) (iblk m c 3 t) (iblk m c 4 t) := if_pos h
theorem outAt_phase1 (c : Dev nD) (t : Fin cfg0.N) (h : ¬t.val < 25) :
    outAt m c t = k0_pay5 (iblk m c 1 t) (zAll m c) (iblk m c 5 t) := if_neg h

/-- The region invariant before point `n`: before the first point what the launch hands over (both scratches at
    anything); afterwards the first scratch at the feature transform, the second filled up to row `400 · min n 25`,
    and the generator register at some state. -/
def PhiS (c : Dev nD) : (n : ℕ) → sProp 𝕄
  | 0 => Pipeline.ΦA spec0 c
  | n + 1 => iprop(iprop(owns (c : Thread nD τ) mY fullShare (yAll m c) ∗ (∃ d, ⌜ZFilled m c (n + 1) d⌝ ∗ owns (c : Thread nD τ) mZ fullShare d)) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) mY fullShare (yAll m c) ∗ (∃ d, ⌜ZFilled m c (n + 1) d⌝ ∗ owns (c : Thread nD τ) mZ fullShare d)) ∗ (∃ r, prngReg c r)) := rfl
theorem PhiS_pos (c : Dev nD) (n : ℕ) (hn : n ≠ 0) :
    PhiS m c n = iprop(iprop(owns (c : Thread nD τ) mY fullShare (yAll m c) ∗ (∃ d, ⌜ZFilled m c n d⌝ ∗ owns (c : Thread nD τ) mZ fullShare d)) ∗ (∃ r, prngReg c r)) := by
  cases n with
  | zero => exact absurd rfl hn
  | succ n => rfl

/-! ## The pipeline's proof data -/

/-- The proof data of the one pipeline on core `c`: the arrays as the region finds them; after the body at point `t`
    each input's buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.Kernel.Hand

end
-- ==== Proof.KRunMid.lean ====
/-
  The body at a point of phase 0 other than the first: on whole memrefs holding the inputs' blocks, the feature
  transform `ys` in the first scratch and any contents `zs` in the second, it runs to a state where the inputs and the
  first scratch are as they were, the output block has been stored whole, and the second scratch is `zs` with the
  point's slice of 400 rows written over it. The stored pieces are found by running the body.
-/
import proofs.«125999_g90108413870386_cont_sun_c4_37_7_alg».proof.Proof.KSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (first component) and in the second scratch over `zs` (second
    component) at a point of phase 0 that is not the first, with the run that finds them. -/
noncomputable def runMid (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) :
    Σ' (L8 : List (View.Piece (Elt F) S1x400x16 .f32)), { L10 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare ys ∗ owns (c : Thread nD τ) arg10 fullShare zs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ owns (c : Thread nD τ) arg9 fullShare ys ∗ (arg10.view.loc (c : Thread nD τ) ↦[arg10.view.set]{fullShare} arg10.view.writes (Elt F) (harg10.unread zs) L10)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; isplitr; · ipureintro; exact harg9.read_unread _
      iexact HS0
    iexact HS1

end Cert.Kernel.Hand

end
-- ==== Proof.KRunFirst.lean ====
/-
  The body at the grid's first point: it computes the feature transform into the first scratch (held at anything
  before), then does what every point of phase 0 does. On whole memrefs holding the inputs' blocks and any contents
  `zs` in the second scratch it runs to a state where the inputs are as they were, the first scratch and the output
  block have been stored whole, and the second scratch is `zs` with rows 0 … 399 written over it.
-/
import proofs.«125999_g90108413870386_cont_sun_c4_37_7_alg».proof.Proof.KRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block, in the first scratch, and in the second scratch over `zs`, at the
    first point, with the run that finds them. -/
noncomputable def runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) :
    Σ' (L8 : List (View.Piece (Elt F) S1x400x16 .f32)) (L9 : List (View.Piece (Elt F) S10000x32 .f32)), { L10 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare zs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread zs) L10)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; iexact HS0
    iexact HS1

end Cert.Kernel.Hand

end
-- ==== Proof.KRunLast.lean ====
/-
  The body at a point of phase 1: it reads the whole second scratch `zs` (the first layer, complete by then), computes
  the block's second layer and log-softmax, and stores the output block whole; the inputs and both scratches are as they
  were.
-/
import proofs.«125999_g90108413870386_cont_sun_c4_37_7_alg».proof.Proof.KRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block at a point of phase 1, with the run that finds them. -/
noncomputable def runLast (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : ¬inPhase0 i) (hc2 : inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) :
    { L8 : List (View.Piece (Elt F) S1x400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare ys ∗ owns (c : Thread nD τ) arg10 fullShare zs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ owns (c : Thread nD τ) arg9 fullShare ys ∗ owns (c : Thread nD τ) arg10 fullShare zs) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; isplitr; · ipureintro; exact harg9.read_unread _
      iexact HS0
    iexists _; isplitr; · ipureintro; exact harg10.read_unread _
    iexact HS1

end Cert.Kernel.Hand

end
-- ==== Proof.KPieces.lean ====
/-
  What the three runs leave, read back. The output block is stored whole at every point, so it reads back as the stored
  value: the first layer's block of the point's adjacency rows in phase 0, the log-softmax block in phase 1. The first
  scratch is stored whole at the first point and reads back as the feature transform. The second scratch is written on
  the point's 400 rows only: inside that slab it reads the first layer's block, outside it what it held before.
-/
import proofs.«125999_g90108413870386_cont_sun_c4_37_7_alg».proof.Proof.KRunLast
import Idealize.ShloMosaic.Lib.Pipeline.Value
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → ℕ) = fun _ => 0 := by funext a; fin_cases a <;> rfl
theorem zeros3 : (![0, 0, 0] : Fin 3 → ℕ) = fun _ => 0 := by funext a; fin_cases a <;> rfl

/-- A point of phase 0 after the first leaves the first layer's block in the output block. -/
theorem midOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) (f : arg8.view.ty.Contents (Elt F)) :
    arg8.view.read (Elt F) (arg8.view.writes (Elt F) f (runMid c i arg2 harg2 arg3 harg3 arg4 harg4 arg5 harg5 arg6 harg6 arg7 harg7 arg8 harg8 arg9 harg9 arg10 harg10 hc0 hc1 hc2 x0 x1 x2 x3 x4 x5 ys zs).1) = k0_pay4 x1 ys x3 x4 := by
  unfold runMid; dsimp only
  sl_unfold_words
  funext y
  refine (View.read_writes_cons_unit_of_mem arg8.view f _ _ [] y y rfl (fun a => by fin_cases a <;> exact (Nat.zero_add _).symm)).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … and, on the rows of its slab, the first layer's block in the second scratch; -/
theorem midZ_in (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) (y : S10000x16.Idx) (x : S400x16.Idx)
    (hx0 : (y (0 : Fin 2)).val = 400 * (i 1).val + (x (0 : Fin 2)).val) (hx1 : (y (1 : Fin 2)).val = (x (1 : Fin 2)).val) :
    arg10.view.read (Elt F) (arg10.view.writes (Elt F) (harg10.unread zs) (runMid c i arg2 harg2 arg3 harg3 arg4 harg4 arg5 harg5 arg6 harg6 arg7 harg7 arg8 harg8 arg9 harg9 arg10 harg10 hc0 hc1 hc2 x0 x1 x2 x3 x4 x5 ys zs).2.1) y
      = k0_pay3 x1 ys x3 x4 x := by
  unfold runMid; dsimp only
  sl_unfold_words
  refine (View.read_writes_cons_rows_of_mem (d := ![10000, 16]) arg10.view _ _ _ [] y x (k0_off1_eq i) hx0 hx1).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … and outside it what the scratch held. -/
theorem midZ_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) (y : S10000x16.Idx)
    (h : (y (0 : Fin 2)).val < 400 * (i 1).val ∨ 400 * (i 1).val + 400 ≤ (y (0 : Fin 2)).val) :
    arg10.view.read (Elt F) (arg10.view.writes (Elt F) (harg10.unread zs) (runMid c i arg2 harg2 arg3 harg3 arg4 harg4 arg5 harg5 arg6 harg6 arg7 harg7 arg8 harg8 arg9 harg9 arg10 harg10 hc0 hc1 hc2 x0 x1 x2 x3 x4 x5 ys zs).2.1) y
      = zs y := by
  unfold runMid; dsimp only
  sl_unfold_words
  refine (View.read_writes_cons_rows_of_not_mem (d := ![10000, 16]) (W := 400) arg10.view _ _ _ [] y (k0_off1_eq i) rfl h).trans ?_
  rw [View.writes_nil, harg10.read_unread]

/-- A point of phase 1 leaves the log-softmax block in the output block. -/
theorem lastOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : ¬inPhase0 i) (hc2 : inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) (f : arg8.view.ty.Contents (Elt F)) :
    arg8.view.read (Elt F) (arg8.view.writes (Elt F) f (runLast c i arg2 harg2 arg3 harg3 arg4 harg4 arg5 harg5 arg6 harg6 arg7 harg7 arg8 harg8 arg9 harg9 arg10 harg10 hc0 hc1 hc2 x0 x1 x2 x3 x4 x5 ys zs).1) = k0_pay5 x1 zs x5 := by
  unfold runLast; dsimp only
  sl_unfold_words
  funext y
  refine (View.read_writes_cons_unit_of_mem arg8.view f _ _ [] y y rfl (fun a => by fin_cases a <;> exact (Nat.zero_add _).symm)).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- The first point leaves the feature transform in the first scratch, -/
theorem firstY (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 hc0 hc1 hc2 x0 x1 x2 x3 x4 x5 zs).2.1) = k0_pay1 x0 x2 := by
  unfold runFirst; dsimp only
  sl_unfold_words
  funext y
  refine (View.read_writes_cons_unit_of_mem arg9.view f _ _ [] y y rfl (fun a => by fin_cases a <;> exact (Nat.zero_add _).symm)).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … the first layer's block, computed from that feature transform, in the output block, -/
theorem firstOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 arg10 harg10 hc0 hc1 hc2 x0 x1 x2 x3 x4 x5 zs).1) = k0_pay4 x1 (k0_pay1 x0 x2) x3 x4 := by
  unfold runFirst; dsimp only
  sl_unfold_words
  funext y
  refine (View.read_writes_cons_unit_of_mem arg8.view f _ _ [] y y rfl (fun a => by fin_cases a <;> exact (Nat.zero_add _).symm)).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … the same block on the rows of its slab in the second scratch, -/
theorem firstZ_in (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) (y : S10000x16.Idx) (x : S400x16.Idx)
    (hx0 : (y (0 : Fin 2)).val = 400 * (i 1).val + (x (0 : Fin 2)).val) (hx1 : (y (1 : Fin 2)).val = (x (1 : Fin 2)).val) :
    arg10.view.read (Elt F) (arg10.view.writes (Elt F) (harg10.unread zs) (runFirst c i arg2 harg2 arg3 harg3 arg4 harg4 arg5 harg5 arg6 harg6 arg7 harg7 arg8 harg8 arg9 harg9 arg10 harg10 hc0 hc1 hc2 x0 x1 x2 x3 x4 x5 zs).2.2.1) y
      = k0_pay3 x1 (k0_pay1 x0 x2) x3 x4 x := by
  unfold runFirst; dsimp only
  sl_unfold_words
  refine (View.read_writes_cons_rows_of_mem (d := ![10000, 16]) arg10.view _ _ _ [] y x (k0_off1_eq i) hx0 hx1).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … and outside the slab what the scratch held. -/
theorem firstZ_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) (y : S10000x16.Idx)
    (h : (y (0 : Fin 2)).val < 400 * (i 1).val ∨ 400 * (i 1).val + 400 ≤ (y (0 : Fin 2)).val) :
    arg10.view.read (Elt F) (arg10.view.writes (Elt F) (harg10.unread zs) (runFirst c i arg2 harg2 arg3 harg3 arg4 harg4 arg5 harg5 arg6 harg6 arg7 harg7 arg8 harg8 arg9 harg9 arg10 harg10 hc0 hc1 hc2 x0 x1 x2 x3 x4 x5 zs).2.2.1) y
      = zs y := by
  unfold runFirst; dsimp only
  sl_unfold_words
  refine (View.read_writes_cons_rows_of_not_mem (d := ![10000, 16]) (W := 400) arg10.view _ _ _ [] y (k0_off1_eq i) rfl h).trans ?_
  rw [View.writes_nil, harg10.read_unread]

end Cert.Kernel.Hand

end
-- ==== Proof.KBody.lean ====
/-
  The body obligation of the pipeline, point by point, and the run of the whole program.

  At the first point the launch hands over both scratches at anything; the body stores the feature transform and the
  first block of the first layer. At the later points of phase 0 the first scratch holds the feature transform and the
  second is filled below the point's slab; the body fills the slab. In phase 1 the second scratch is the whole first
  layer, which the body only reads. In every case the output block ends at the point's `outAt`.
-/
import proofs.«125999_g90108413870386_cont_sun_c4_37_7_alg».proof.Proof.KData
import proofs.«125999_g90108413870386_cont_sun_c4_37_7_alg».proof.Proof.KPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window's buffer is left at -/

theorem leaves_0 (c : Dev nD) (t : Fin cfg0.N) : (dats m 0 c).leavesExact 0 t = owns (c : Thread nD τ) (mX t) fullShare (iblk m c 0 t) := by
  unfold Dat.leavesExact; rw [live_0 t, after_0]
theorem leaves_1 (c : Dev nD) (t : Fin cfg0.N) : (dats m 0 c).leavesExact 1 t = owns (c : Thread nD τ) (mAdj t) fullShare (iblk m c 1 t) := by
  unfold Dat.leavesExact; rw [live_1 t, after_1]
theorem leaves_2 (c : Dev nD) (t : Fin cfg0.N) : (dats m 0 c).leavesExact 2 t = owns (c : Thread nD τ) (mW1 t) fullShare (iblk m c 2 t) := by
  unfold Dat.leavesExact; rw [live_2 t, after_2]
theorem leaves_3 (c : Dev nD) (t : Fin cfg0.N) : (dats m 0 c).leavesExact 3 t = owns (c : Thread nD τ) (mB1 t) fullShare (iblk m c 3 t) := by
  unfold Dat.leavesExact; rw [live_3 t, after_3]
theorem leaves_4 (c : Dev nD) (t : Fin cfg0.N) : (dats m 0 c).leavesExact 4 t = owns (c : Thread nD τ) (mW2 t) fullShare (iblk m c 4 t) := by
  unfold Dat.leavesExact; rw [live_4 t, after_4]
theorem leaves_5 (c : Dev nD) (t : Fin cfg0.N) : (dats m 0 c).leavesExact 5 t = owns (c : Thread nD τ) (mB2 t) fullShare (iblk m c 5 t) := by
  unfold Dat.leavesExact; rw [live_5 t, after_5]
theorem leaves_6 (c : Dev nD) (t : Fin cfg0.N) : (dats m 0 c).leavesExact 6 t = owns (c : Thread nD τ) (mOut t) fullShare (outAt m c t) := by
  unfold Dat.leavesExact; rw [live_6 t, after_6]

/-! ## The first layer's rows, block by block -/

theorem zBlk_congr (c : Dev nD) {k k' : ℕ} (e : k = k') (hk : k < 25) (hk' : k' < 25) : zBlk m c k hk = zBlk m c k' hk' := by
  subst e; rfl

/-- Row `400 · k + x₀` of the first layer is row `x₀` of block `k`. -/
theorem zAll_at (c : Dev nD) (y : S10000x16.Idx) (k : ℕ) (hk : k < 25) (x : S400x16.Idx)
    (h0 : (y (0 : Fin 2)).val = 400 * k + (x (0 : Fin 2)).val) (h1 : (y (1 : Fin 2)).val = (x (1 : Fin 2)).val) :
    zAll m c y = zBlk m c k hk x := by
  have hx : (x (0 : Fin 2)).val < 400 := ValueIdx.idx2_lt0 x
  have e1 : (y (0 : Fin 2)).val / 400 = k := by omega
  have e2 : (ValueIdx.ix2 (⟨(y (0 : Fin 2)).val % 400, Nat.mod_lt _ (by omega)⟩ : Fin 400) (⟨(y (1 : Fin 2)).val, ValueIdx.idx2_lt1 y⟩ : Fin 16) : S400x16.Idx) = x :=
    funext fun a => match a with
      | ⟨0, _⟩ => Fin.ext (by show (y (0 : Fin 2)).val % 400 = (x (0 : Fin 2)).val; omega)
      | ⟨1, _⟩ => Fin.ext h1
  unfold zAll
  exact (congrFun (zBlk_congr m c e1 _ hk) _).trans (congrArg _ e2)

/-- The block of point `t` of phase 0, from that point's own blocks. -/
theorem zBlk_pt (c : Dev nD) (t : Fin cfg0.N) (h : t.val < 25) :
    zBlk m c t.val h = k0_pay3 (iblk m c 1 t) (yAll m c) (iblk m c 3 t) (iblk m c 4 t) := rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mAdj t) fullShare ((dats m 0 c).before 1 t d))
    ∗ (∃ d, owns (c : Thread nD τ) (mW1 t) fullShare ((dats m 0 c).before 2 t d))
    ∗ (∃ d, owns (c : Thread nD τ) (mB1 t) fullShare ((dats m 0 c).before 3 t d))
    ∗ (∃ d, owns (c : Thread nD τ) (mW2 t) fullShare ((dats m 0 c).before 4 t d))
    ∗ (∃ d, owns (c : Thread nD τ) (mB2 t) fullShare ((dats m 0 c).before 5 t d))
    ∗ (∃ d, owns (c : Thread nD τ) (mOut t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The first point. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [Phi_castSucc, Phi_succ, leaves_0, leaves_1, leaves_2, leaves_3, leaves_4, leaves_5, leaves_6]
  have hN : t.val < 50 := lt_of_lt_of_eq t.isLt N50
  have h0 : isFirst (grid0.coords t) := (isFirst_iff t).mpr ht
  have h1 : inPhase0 (grid0.coords t) := (inPhase0_iff t).mpr (by omega)
  have h2 : ¬inPhase1 (grid0.coords t) := fun h => by have := (inPhase1_iff t).mp h; omega
  have hb : ((grid0.coords t) 1).val = 0 := by rw [coords_block t, ht]
  have et : t = pt 0 (by omega) := Fin.ext ht
  rw [show PhiS m c t.val = Pipeline.ΦA spec0 c from by rw [ht]; rfl, PhiA_eq, PhiS_succ]
  iintro ⟨⟨⟨⟨%dy, HY⟩, ⟨%dz, HZ⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runFirst c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) dz).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HY]; · iexists _; iexact HY
  isplitl [HZ]; · iexact HZ
  iintro ⟨H0, H1, H2, H3, H4, H5, ⟨%f8, H6⟩, ⟨%f9, HY⟩, HZ⟩
  isplitl [HY HZ Hg]
  · isplitl [HY HZ]
    · isplitl [HY]
      · unfold owns; iexists _; isplitr; swap; · iexact HY
        ipureintro
        refine (firstY c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) dz f9).trans ?_
        rw [et]; rfl
      · iexists _; isplitr; swap
        · unfold owns; iexists _; isplitr; swap; · iexact HZ
          ipureintro; rfl
        ipureintro
        intro y hy
        have hy' : (y (0 : Fin 2)).val < 400 := by omega
        have hx := firstZ_in c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) dz y
          (ValueIdx.ix2 (⟨(y (0 : Fin 2)).val, hy'⟩ : Fin 400) (⟨(y (1 : Fin 2)).val, ValueIdx.idx2_lt1 y⟩ : Fin 16)) (by rw [hb]; show _ = 400 * 0 + (y (0 : Fin 2)).val; omega) rfl
        refine hx.trans ?_
        rw [zAll_at m c y 0 (by omega) (ValueIdx.ix2 (⟨(y (0 : Fin 2)).val, hy'⟩ : Fin 400) (⟨(y (1 : Fin 2)).val, ValueIdx.idx2_lt1 y⟩ : Fin 16)) (by show _ = 400 * 0 + (y (0 : Fin 2)).val; omega) rfl]
        rw [et]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro
  refine (firstOut c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) dz f8).trans ?_
  rw [outAt_phase0 m c t (by omega), et]; rfl

set_option maxHeartbeats 4000000 in
/-- A later point of phase 0. -/
theorem sound_mid (c : Dev nD) (t : Fin cfg0.N) (ht : t.val ≠ 0) (ht' : t.val < 25) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [Phi_castSucc, Phi_succ, leaves_0, leaves_1, leaves_2, leaves_3, leaves_4, leaves_5, leaves_6]
  have hN : t.val < 50 := lt_of_lt_of_eq t.isLt N50
  have h0 : ¬isFirst (grid0.coords t) := fun h => ht ((isFirst_iff t).mp h)
  have h1 : inPhase0 (grid0.coords t) := (inPhase0_iff t).mpr ht'
  have h2 : ¬inPhase1 (grid0.coords t) := fun h => by have := (inPhase1_iff t).mp h; omega
  have hb : ((grid0.coords t) 1).val = t.val := by rw [coords_block t]; omega
  rw [PhiS_pos m c _ ht, PhiS_succ]
  iintro ⟨⟨⟨HY, ⟨%dz, %hdz, HZ⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runMid c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) dz).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HY]; · iexact HY
  isplitl [HZ]; · iexact HZ
  iintro ⟨H0, H1, H2, H3, H4, H5, ⟨%f8, H6⟩, HY, HZ⟩
  isplitl [HY HZ Hg]
  · isplitl [HY HZ]
    · isplitl [HY]
      · iexact HY
      · iexists _; isplitr; swap
        · unfold owns; iexists _; isplitr; swap; · iexact HZ
          ipureintro; rfl
        ipureintro
        intro y hy
        have hmin : min (t.val + 1) 25 = t.val + 1 := by omega
        rw [hmin] at hy
        by_cases hlow : (y (0 : Fin 2)).val < 400 * t.val
        · refine (midZ_out c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) dz y (by rw [hb]; exact Or.inl hlow)).trans ?_
          exact hdz y (by have : min t.val 25 = t.val := by omega
                          rw [this]; exact hlow)
        · have hy' : (y (0 : Fin 2)).val - 400 * t.val < 400 := by omega
          have hx := midZ_in c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) dz y
            (ValueIdx.ix2 (⟨(y (0 : Fin 2)).val - 400 * t.val, hy'⟩ : Fin 400) (⟨(y (1 : Fin 2)).val, ValueIdx.idx2_lt1 y⟩ : Fin 16))
            (by rw [hb]; show _ = 400 * t.val + ((y (0 : Fin 2)).val - 400 * t.val); omega) rfl
          refine hx.trans ?_
          rw [zAll_at m c y t.val ht' (ValueIdx.ix2 (⟨(y (0 : Fin 2)).val - 400 * t.val, hy'⟩ : Fin 400) (⟨(y (1 : Fin 2)).val, ValueIdx.idx2_lt1 y⟩ : Fin 16))
            (by show _ = 400 * t.val + ((y (0 : Fin 2)).val - 400 * t.val); omega) rfl, zBlk_pt m c t ht']
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro
  refine (midOut c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) dz f8).trans ?_
  rw [outAt_phase0 m c t ht']

set_option maxHeartbeats 4000000 in
/-- A point of phase 1. -/
theorem sound_last (c : Dev nD) (t : Fin cfg0.N) (ht : 25 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [Phi_castSucc, Phi_succ, leaves_0, leaves_1, leaves_2, leaves_3, leaves_4, leaves_5, leaves_6]
  have hN : t.val < 50 := lt_of_lt_of_eq t.isLt N50
  have h0 : ¬isFirst (grid0.coords t) := fun h => by have := (isFirst_iff t).mp h; omega
  have h1 : ¬inPhase0 (grid0.coords t) := fun h => by have := (inPhase0_iff t).mp h; omega
  have h2 : inPhase1 (grid0.coords t) := (inPhase1_iff t).mpr ht
  rw [PhiS_pos m c _ (by omega), PhiS_succ]
  iintro ⟨⟨⟨HY, ⟨%dz, %hdz, HZ⟩⟩, Hg⟩, Ho, ⟨%d0, H0⟩, ⟨%d1, H1⟩, ⟨%d2, H2⟩, ⟨%d3, H3⟩, ⟨%d4, H4⟩, ⟨%d5, H5⟩, ⟨%d6, H6⟩⟩
  obtain rfl : dz = zAll m c := hdz.eq_zAll m ht
  iapply ((runLast c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) (zAll m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HY]; · iexact HY
  isplitl [HZ]; · iexact HZ
  iintro ⟨H0, H1, H2, H3, H4, H5, ⟨%f8, H6⟩, HY, HZ⟩
  isplitl [HY HZ Hg]
  · isplitl [HY HZ]
    · isplitl [HY]
      · iexact HY
      · iexists _; isplitr; swap
        · iexact HZ
        ipureintro; exact ZFilled.of_eq m c _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro
  refine (lastOut c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) (zAll m c) f8).trans ?_
  rw [outAt_phase1 m c t (by omega)]

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · by_cases ht' : t.val < 25
    · exact sound_mid m c t ht ht'
    · exact sound_last m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]

/-- After the last point the invariant gives both scratches back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, N50]; omega), PhiA_eq]
  iintro ⟨⟨HY, ⟨%dz, -, HZ⟩⟩, Hg⟩
  isplitl [HY HZ]
  · isplitl [HY]
    · iexists _; iexact HY
    iexists _; iexact HZ
  iexact Hg

/-! ## The run and the frame -/

set_option backward.isDefEq.respectTransparency.types false in
/-- Every weakly fair execution of the program terminates, every array of the pipeline ends at what the proof data say
    (the output array at the blocks written back), and the host's closing operations have been applied to that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KISetup.lean ====
/-
  The grid of the fused kernel is 2 phases × 25 row blocks, visited in order: point t is phase t / 25, row block t % 25.
  The body has three conditionals on the coordinates: "first point" (phase 0 and block 0: the feature transform is
  computed into the first scratch), "phase 0" (a row block of the first layer is computed into its slice of the second
  scratch and into the output block) and "phase 1" (a row block of the second layer and its log-softmax go to the output
  block). Here: the three conditions in closed form over the grid, the fact that no window is ever idle, and names for the
  staging memrefs and the two scratch memrefs the body is called with.
-/
import proofs.«125999_g90108413870386_cont_sun_c4_37_7_alg».proof.Proof.Gen.KernelIdeal.Frame
import proofs.«125999_g90108413870386_cont_sun_c4_37_7_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- "Phase 0 and row block 0", as the body computes it from the coordinates. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem isFirst_iff : ∀ t : Fin cfg0.N, isFirst (grid0.coords t) ↔ t.val = 0 :=
  (by decide +kernel : ∀ t : Fin grid0.N, isFirst (grid0.coords t) ↔ t.val = 0)

/-- "Phase 0". -/
abbrev inPhase0 (i : grid0.Coords) : Prop := k0_cond2 i = 1#1
/-- It holds at the first 25 points. -/
theorem inPhase0_iff : ∀ t : Fin cfg0.N, inPhase0 (grid0.coords t) ↔ t.val < 25 :=
  (by decide +kernel : ∀ t : Fin grid0.N, inPhase0 (grid0.coords t) ↔ t.val < 25)

/-- "Phase 1". -/
abbrev inPhase1 (i : grid0.Coords) : Prop := k0_cond3 i = 1#1
/-- It holds at the last 25 points. -/
theorem inPhase1_iff : ∀ t : Fin cfg0.N, inPhase1 (grid0.coords t) ↔ 25 ≤ t.val :=
  (by decide +kernel : ∀ t : Fin grid0.N, inPhase1 (grid0.coords t) ↔ 25 ≤ t.val)

/-- The row block of point `t` is `t % 25`. -/
theorem coords_block : ∀ t : Fin cfg0.N, ((grid0.coords t) 1).val = t.val % 25 :=
  (by decide +kernel : ∀ t : Fin grid0.N, ((grid0.coords t) 1).val = t.val % 25)

/-! ## No window is idle at any point -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- The output block is stored at every point (in phase 0 the first layer's block, in phase 1 the result's). -/
theorem live_6 : ∀ t : Fin cfg0.N, cfg0.idle 6 (grid0.coords t) = false := by decide +kernel

/-! ## The memrefs the body is called with -/

abbrev mX (t : Fin cfg0.N) : Memref sig .tc .vmem S10000x128 .f32 := win0_0.stage (cfg0.slots t 0)
abbrev hX (t : Fin cfg0.N) : (mX t).IsWhole := hstage0_0 ((cfg0.slots t 0).cast nbuf0_0)
abbrev mAdj (t : Fin cfg0.N) : Memref sig .tc .vmem S400x10000 .f32 := win0_1.stage (cfg0.slots t 1)
abbrev hAdj (t : Fin cfg0.N) : (mAdj t).IsWhole := hstage0_1 ((cfg0.slots t 1).cast nbuf0_1)
abbrev mW1 (t : Fin cfg0.N) : Memref sig .tc .vmem S128x32 .f32 := win0_2.stage (cfg0.slots t 2)
abbrev hW1 (t : Fin cfg0.N) : (mW1 t).IsWhole := hstage0_2 ((cfg0.slots t 2).cast nbuf0_2)
abbrev mB1 (t : Fin cfg0.N) : Memref sig .tc .vmem S1x32 .f32 := win0_3.stage (cfg0.slots t 3)
abbrev hB1 (t : Fin cfg0.N) : (mB1 t).IsWhole := hstage0_3 ((cfg0.slots t 3).cast nbuf0_3)
abbrev mW2 (t : Fin cfg0.N) : Memref sig .tc .vmem S32x16 .f32 := win0_4.stage (cfg0.slots t 4)
abbrev hW2 (t : Fin cfg0.N) : (mW2 t).IsWhole := hstage0_4 ((cfg0.slots t 4).cast nbuf0_4)
abbrev mB2 (t : Fin cfg0.N) : Memref sig .tc .vmem S1x16 .f32 := win0_5.stage (cfg0.slots t 5)
abbrev hB2 (t : Fin cfg0.N) : (mB2 t).IsWhole := hstage0_5 ((cfg0.slots t 5).cast nbuf0_5)
abbrev mOut (t : Fin cfg0.N) : Memref sig .tc .vmem S1x400x16 .f32 := win0_6.stage (cfg0.slots t 6)
abbrev hOut (t : Fin cfg0.N) : (mOut t).IsWhole := hstage0_6 ((cfg0.slots t 6).cast nbuf0_6)
/-- The scratch that keeps the feature transform `x · W1` (10000 × 32) for the whole of phase 0. -/
abbrev mY : Memref sig .tc .vmem S10000x32 .f32 := Memref.whole cc0_scratch0
abbrev hY : (mY).IsWhole := Memref.isWhole_whole _
/-- The scratch the first layer's row blocks are collected in (10000 × 16), read whole in phase 1. -/
abbrev mZ : Memref sig .tc .vmem S10000x16 .f32 := Memref.whole cc0_scratch1
abbrev hZ : (mZ).IsWhole := Memref.isWhole_whole _

/-- What the launch hands the region beside the windows: the two scratch buffers at some contents and the generator
    register at some state. -/
theorem PhiA_eq (c : Dev nD) :
    (Pipeline.ΦA spec0 c : sProp 𝕄)
      = iprop(iprop((∃ d, owns (c : Thread nD τ) mY fullShare d) ∗ (∃ d, owns (c : Thread nD τ) mZ fullShare d)) ∗ (∃ r, prngReg c r)) := by
  unfold Pipeline.ΦA; rw [scopedRest0_eq]; simp only [mY, mZ, owns_whole]; try rfl

end Cert.KernelIdeal.Hand

end
-- ==== Proof.KIData.lean ====
/-
  What the region computes, point by point, as data for the pipeline's frame.

  The first scratch holds the feature transform `x · W1` from the first point on (`yAll`). The second scratch is
  filled 400 rows per point during phase 0: after `n` points its rows below `400 · min n 25` are the first layer's
  rows (`zAll`: row `r` belongs to block `r / 400`, computed from that block's adjacency rows), the rows above hold
  whatever they held (`ZFilled`). The output block written back at point `t` is the first layer's block in phase 0 and
  the second layer's log-softmax block in phase 1 (`outAt`). The inputs' staging buffers hold their blocks throughout.
-/
import proofs.«125999_g90108413870386_cont_sun_c4_37_7_alg».proof.Proof.KISetup
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- Point `k` of the grid, for `k < 50`. -/
abbrev pt (k : ℕ) (hk : k < 50) : Fin cfg0.N := ⟨k, lt_of_lt_of_eq hk N50.symm⟩

/-- The feature transform `x · W1`, from the blocks of `x` and `W1` at the first point (they are the whole arrays at every point). -/
def yAll (c : Dev nD) : Vec F S10000x32 .f32 := k0_pay1 (iblk m c 0 (pt 0 (by omega))) (iblk m c 2 (pt 0 (by omega)))

/-- The first layer's 400 rows of row block `k`: from the adjacency's rows of that block, the feature transform, the bias row and `W2`. -/
def zBlk (c : Dev nD) (k : ℕ) (hk : k < 25) : Vec F S400x16 .f32 :=
  k0_pay3 (iblk m c 1 (pt k (by omega))) (yAll m c) (iblk m c 3 (pt k (by omega))) (iblk m c 4 (pt k (by omega)))

/-- The first layer, all 10000 rows: row `r` is row `r % 400` of block `r / 400`. -/
def zAll (c : Dev nD) : Vec F S10000x16 .f32 := fun y =>
  zBlk m c ((y 0).val / 400) (by have := ValueIdx.idx2_lt0 y; omega)
    (ValueIdx.ix2 ⟨(y 0).val % 400, Nat.mod_lt _ (by omega)⟩ ⟨(y 1).val, ValueIdx.idx2_lt1 y⟩)

/-- After `n` points the second scratch `d` holds the first layer on its rows below `400 · min n 25`. -/
def ZFilled (c : Dev nD) (n : ℕ) (d : Vec F S10000x16 .f32) : Prop :=
  ∀ y : S10000x16.Idx, (y 0).val < 400 * min n 25 → d y = zAll m c y

/-- Once phase 0 is over the second scratch IS the first layer. -/
theorem ZFilled.eq_zAll {c : Dev nD} {n : ℕ} {d : Vec F S10000x16 .f32} (h : ZFilled m c n d) (hn : 25 ≤ n) : d = zAll m c :=
  funext fun y => h y (by have := ValueIdx.idx2_lt0 y; rw [Nat.min_eq_right hn]; omega)

theorem ZFilled.of_eq (c : Dev nD) (n : ℕ) : ZFilled m c n (zAll m c) := fun _ _ => rfl

/-- The output block the body leaves at point `t`: in phase 0 the first layer's block (with a leading unit axis), in
    phase 1 the log-softmax of the second layer's block, which reads the whole first layer. -/
def outAt (c : Dev nD) (t : Fin cfg0.N) : Vec F S1x400x16 .f32 :=
  if t.val < 25 then k0_pay4 (iblk m c 1 t) (yAll m c) (iblk m c 3 t) (iblk m c 4 t)
  else k0_pay5 (iblk m c 1 t) (zAll m c) (iblk m c 5 t)

theorem outAt_phase0 (c : Dev nD) (t : Fin cfg0.N) (h : t.val < 25) :
    outAt m c t = k0_pay4 (iblk m c 1 t) (yAll m c) (iblk m c 3 t) (iblk m c 4 t) := if_pos h
theorem outAt_phase1 (c : Dev nD) (t : Fin cfg0.N) (h : ¬t.val < 25) :
    outAt m c t = k0_pay5 (iblk m c 1 t) (zAll m c) (iblk m c 5 t) := if_neg h

/-- The region invariant before point `n`: before the first point what the launch hands over (both scratches at
    anything); afterwards the first scratch at the feature transform, the second filled up to row `400 · min n 25`,
    and the generator register at some state. -/
def PhiS (c : Dev nD) : (n : ℕ) → sProp 𝕄
  | 0 => Pipeline.ΦA spec0 c
  | n + 1 => iprop(iprop(owns (c : Thread nD τ) mY fullShare (yAll m c) ∗ (∃ d, ⌜ZFilled m c (n + 1) d⌝ ∗ owns (c : Thread nD τ) mZ fullShare d)) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) mY fullShare (yAll m c) ∗ (∃ d, ⌜ZFilled m c (n + 1) d⌝ ∗ owns (c : Thread nD τ) mZ fullShare d)) ∗ (∃ r, prngReg c r)) := rfl
theorem PhiS_pos (c : Dev nD) (n : ℕ) (hn : n ≠ 0) :
    PhiS m c n = iprop(iprop(owns (c : Thread nD τ) mY fullShare (yAll m c) ∗ (∃ d, ⌜ZFilled m c n d⌝ ∗ owns (c : Thread nD τ) mZ fullShare d)) ∗ (∃ r, prngReg c r)) := by
  cases n with
  | zero => exact absurd rfl hn
  | succ n => rfl

/-! ## The pipeline's proof data -/

/-- The proof data of the one pipeline on core `c`: the arrays as the region finds them; after the body at point `t`
    each input's buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.KernelIdeal.Hand

end
-- ==== Proof.KIRunMid.lean ====
/-
  The body at a point of phase 0 other than the first: on whole memrefs holding the inputs' blocks, the feature
  transform `ys` in the first scratch and any contents `zs` in the second, it runs to a state where the inputs and the
  first scratch are as they were, the output block has been stored whole, and the second scratch is `zs` with the
  point's slice of 400 rows written over it. The stored pieces are found by running the body.
-/
import proofs.«125999_g90108413870386_cont_sun_c4_37_7_alg».proof.Proof.KISetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (first component) and in the second scratch over `zs` (second
    component) at a point of phase 0 that is not the first, with the run that finds them. -/
noncomputable def runMid (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) :
    Σ' (L8 : List (View.Piece (Elt F) S1x400x16 .f32)), { L10 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare ys ∗ owns (c : Thread nD τ) arg10 fullShare zs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ owns (c : Thread nD τ) arg9 fullShare ys ∗ (arg10.view.loc (c : Thread nD τ) ↦[arg10.view.set]{fullShare} arg10.view.writes (Elt F) (harg10.unread zs) L10)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; isplitr; · ipureintro; exact harg9.read_unread _
      iexact HS0
    iexact HS1

end Cert.KernelIdeal.Hand

end
-- ==== Proof.KIRunFirst.lean ====
/-
  The body at the grid's first point: it computes the feature transform into the first scratch (held at anything
  before), then does what every point of phase 0 does. On whole memrefs holding the inputs' blocks and any contents
  `zs` in the second scratch it runs to a state where the inputs are as they were, the first scratch and the output
  block have been stored whole, and the second scratch is `zs` with rows 0 … 399 written over it.
-/
import proofs.«125999_g90108413870386_cont_sun_c4_37_7_alg».proof.Proof.KIRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block, in the first scratch, and in the second scratch over `zs`, at the
    first point, with the run that finds them. -/
noncomputable def runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) :
    Σ' (L8 : List (View.Piece (Elt F) S1x400x16 .f32)) (L9 : List (View.Piece (Elt F) S10000x32 .f32)), { L10 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare zs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread zs) L10)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; iexact HS0
    iexact HS1

end Cert.KernelIdeal.Hand

end
-- ==== Proof.KIRunLast.lean ====
/-
  The body at a point of phase 1: it reads the whole second scratch `zs` (the first layer, complete by then), computes
  the block's second layer and log-softmax, and stores the output block whole; the inputs and both scratches are as they
  were.
-/
import proofs.«125999_g90108413870386_cont_sun_c4_37_7_alg».proof.Proof.KIRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block at a point of phase 1, with the run that finds them. -/
noncomputable def runLast (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : ¬inPhase0 i) (hc2 : inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) :
    { L8 : List (View.Piece (Elt F) S1x400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare ys ∗ owns (c : Thread nD τ) arg10 fullShare zs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ owns (c : Thread nD τ) arg9 fullShare ys ∗ owns (c : Thread nD τ) arg10 fullShare zs) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; isplitr; · ipureintro; exact harg9.read_unread _
      iexact HS0
    iexists _; isplitr; · ipureintro; exact harg10.read_unread _
    iexact HS1

end Cert.KernelIdeal.Hand

end
-- ==== Proof.KIPieces.lean ====
/-
  What the three runs leave, read back. The output block is stored whole at every point, so it reads back as the stored
  value: the first layer's block of the point's adjacency rows in phase 0, the log-softmax block in phase 1. The first
  scratch is stored whole at the first point and reads back as the feature transform. The second scratch is written on
  the point's 400 rows only: inside that slab it reads the first layer's block, outside it what it held before.
-/
import proofs.«125999_g90108413870386_cont_sun_c4_37_7_alg».proof.Proof.KIRunLast
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → ℕ) = fun _ => 0 := by funext a; fin_cases a <;> rfl
theorem zeros3 : (![0, 0, 0] : Fin 3 → ℕ) = fun _ => 0 := by funext a; fin_cases a <;> rfl

/-- A point of phase 0 after the first leaves the first layer's block in the output block. -/
theorem midOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) (f : arg8.view.ty.Contents (Elt F)) :
    arg8.view.read (Elt F) (arg8.view.writes (Elt F) f (runMid c i arg2 harg2 arg3 harg3 arg4 harg4 arg5 harg5 arg6 harg6 arg7 harg7 arg8 harg8 arg9 harg9 arg10 harg10 hc0 hc1 hc2 x0 x1 x2 x3 x4 x5 ys zs).1) = k0_pay4 x1 ys x3 x4 := by
  unfold runMid; dsimp only
  sl_unfold_words
  funext y
  refine (View.read_writes_cons_unit_of_mem arg8.view f _ _ [] y y rfl (fun a => by fin_cases a <;> exact (Nat.zero_add _).symm)).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … and, on the rows of its slab, the first layer's block in the second scratch; -/
theorem midZ_in (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) (y : S10000x16.Idx) (x : S400x16.Idx)
    (hx0 : (y (0 : Fin 2)).val = 400 * (i 1).val + (x (0 : Fin 2)).val) (hx1 : (y (1 : Fin 2)).val = (x (1 : Fin 2)).val) :
    arg10.view.read (Elt F) (arg10.view.writes (Elt F) (harg10.unread zs) (runMid c i arg2 harg2 arg3 harg3 arg4 harg4 arg5 harg5 arg6 harg6 arg7 harg7 arg8 harg8 arg9 harg9 arg10 harg10 hc0 hc1 hc2 x0 x1 x2 x3 x4 x5 ys zs).2.1) y
      = k0_pay3 x1 ys x3 x4 x := by
  unfold runMid; dsimp only
  sl_unfold_words
  refine (View.read_writes_cons_rows_of_mem (d := ![10000, 16]) arg10.view _ _ _ [] y x (k0_off1_eq i) hx0 hx1).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … and outside it what the scratch held. -/
theorem midZ_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) (y : S10000x16.Idx)
    (h : (y (0 : Fin 2)).val < 400 * (i 1).val ∨ 400 * (i 1).val + 400 ≤ (y (0 : Fin 2)).val) :
    arg10.view.read (Elt F) (arg10.view.writes (Elt F) (harg10.unread zs) (runMid c i arg2 harg2 arg3 harg3 arg4 harg4 arg5 harg5 arg6 harg6 arg7 harg7 arg8 harg8 arg9 harg9 arg10 harg10 hc0 hc1 hc2 x0 x1 x2 x3 x4 x5 ys zs).2.1) y
      = zs y := by
  unfold runMid; dsimp only
  sl_unfold_words
  refine (View.read_writes_cons_rows_of_not_mem (d := ![10000, 16]) (W := 400) arg10.view _ _ _ [] y (k0_off1_eq i) rfl h).trans ?_
  rw [View.writes_nil, harg10.read_unread]

/-- A point of phase 1 leaves the log-softmax block in the output block. -/
theorem lastOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : ¬isFirst i) (hc1 : ¬inPhase0 i) (hc2 : inPhase1 i)
    (x0 : Vec F S10000x128 .f32) (x1 : Vec F S400x10000 .f32) (x2 : Vec F S128x32 .f32) (x3 : Vec F S1x32 .f32) (x4 : Vec F S32x16 .f32) (x5 : Vec F S1x16 .f32) (ys : Vec F S10000x32 .f32) (zs : Vec F S10000x16 .f32) (f : arg8.view.ty.Contents (Elt F)) :
    arg8.view.read (Elt F) (arg8.view.writes (Elt F) f (runLast c i arg2 harg2 arg3 harg3 arg4 harg4 arg5 harg5 arg6 harg6 arg7 harg7 arg8 harg8 arg9 harg9 arg10 harg10 hc0 hc1 hc2 x0 x1 x2 x3 x4 x5 ys zs).1) = k0_pay5 x1 zs x5 := by
  unfold runLast; dsimp only
  sl_unfold_words
  funext y
  refine (View.read_writes_cons_unit_of_mem arg8.view f _ _ [] y y rfl (fun a => by fin_cases a <;> exact (Nat.zero_add _).symm)).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- The first point leaves the feature transform in the first scratch, -/
theorem firstY (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 hc0 hc1 hc2 x0 x1 x2 x3 x4 x5 zs).2.1) = k0_pay1 x0 x2 := by
  unfold runFirst; dsimp only
  sl_unfold_words
  funext y
  refine (View.read_writes_cons_unit_of_mem arg9.view f _ _ [] y y rfl (fun a => by fin_cases a <;> exact (Nat.zero_add _).symm)).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … the first layer's block, computed from that feature transform, in the output block, -/
theorem firstOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 arg10 harg10 hc0 hc1 hc2 x0 x1 x2 x3 x4 x5 zs).1) = k0_pay4 x1 (k0_pay1 x0 x2) x3 x4 := by
  unfold runFirst; dsimp only
  sl_unfold_words
  funext y
  refine (View.read_writes_cons_unit_of_mem arg8.view f _ _ [] y y rfl (fun a => by fin_cases a <;> exact (Nat.zero_add _).symm)).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … the same block on the rows of its slab in the second scratch, -/
theorem firstZ_in (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) (y : S10000x16.Idx) (x : S400x16.Idx)
    (hx0 : (y (0 : Fin 2)).val = 400 * (i 1).val + (x (0 : Fin 2)).val) (hx1 : (y (1 : Fin 2)).val = (x (1 : Fin 2)).val) :
    arg10.view.read (Elt F) (arg10.view.writes (Elt F) (harg10.unread zs) (runFirst c i arg2 harg2 arg3 harg3 arg4 harg4 arg5 harg5 arg6 harg6 arg7 harg7 arg8 harg8 arg9 harg9 arg10 harg10 hc0 hc1 hc2 x0 x1 x2 x3 x4 x5 zs).2.2.1) y
      = k0_pay3 x1 (k0_pay1 x0 x2) x3 x4 x := by
  unfold runFirst; dsimp only
  sl_unfold_words
  refine (View.read_writes_cons_rows_of_mem (d := ![10000, 16]) arg10.view _ _ _ [] y x (k0_off1_eq i) hx0 hx1).trans ?_
  simp only [View.readAt_eq_ld, Memref.IsWhole.read_unread, View.ld_unit_zero (S := S400x10000) zeros2,
    View.ld_unit_zero (S := S10000x32) zeros2, View.ld_unit_zero (S := S1x32) zeros2, View.ld_unit_zero (S := S32x16) zeros2,
    View.ld_unit_zero (S := S10000x16) zeros2, View.ld_unit_zero (S := S1x16) zeros2, View.ld_unit_zero (S := S10000x128) zeros2,
    View.ld_unit_zero (S := S128x32) zeros2, View.readCov_unit_zero (S := S10000x32) _ zeros2]

/-- … and outside the slab what the scratch held. -/
theorem firstZ_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .f32) (harg9 : arg9.IsWhole) (arg10 : Memref sig .tc .vmem S10000x16 .f32) (harg10 : arg10.IsWhole) (hc0 : isFirst i) (hc1 : inPhase0 i) (hc2 : ¬inPhase1 i)
    (x0 : Vec F S10000x128 .f32) (x1 : Vec F S400x10000 .f32) (x2 : Vec F S128x32 .f32) (x3 : Vec F S1x32 .f32) (x4 : Vec F S32x16 .f32) (x5 : Vec F S1x16 .f32) (zs : Vec F S10000x16 .f32) (y : S10000x16.Idx)
    (h : (y (0 : Fin 2)).val < 400 * (i 1).val ∨ 400 * (i 1).val + 400 ≤ (y (0 : Fin 2)).val) :
    arg10.view.read (Elt F) (arg10.view.writes (Elt F) (harg10.unread zs) (runFirst c i arg2 harg2 arg3 harg3 arg4 harg4 arg5 harg5 arg6 harg6 arg7 harg7 arg8 harg8 arg9 harg9 arg10 harg10 hc0 hc1 hc2 x0 x1 x2 x3 x4 x5 zs).2.2.1) y
      = zs y := by
  unfold runFirst; dsimp only
  sl_unfold_words
  refine (View.read_writes_cons_rows_of_not_mem (d := ![10000, 16]) (W := 400) arg10.view _ _ _ [] y (k0_off1_eq i) rfl h).trans ?_
  rw [View.writes_nil, harg10.read_unread]

end Cert.KernelIdeal.Hand

end
-- ==== Proof.KIBody.lean ====
/-
  The body obligation of the pipeline, point by point, and the run of the whole program.

  At the first point the launch hands over both scratches at anything; the body stores the feature transform and the
  first block of the first layer. At the later points of phase 0 the first scratch holds the feature transform and the
  second is filled below the point's slab; the body fills the slab. In phase 1 the second scratch is the whole first
  layer, which the body only reads. In every case the output block ends at the point's `outAt`.
-/
import proofs.«125999_g90108413870386_cont_sun_c4_37_7_alg».proof.Proof.KIData
import proofs.«125999_g90108413870386_cont_sun_c4_37_7_alg».proof.Proof.KIPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window's buffer is left at -/

theorem leaves_0 (c : Dev nD) (t : Fin cfg0.N) : (dats m 0 c).leavesExact 0 t = owns (c : Thread nD τ) (mX t) fullShare (iblk m c 0 t) := by
  unfold Dat.leavesExact; rw [live_0 t, after_0]
theorem leaves_1 (c : Dev nD) (t : Fin cfg0.N) : (dats m 0 c).leavesExact 1 t = owns (c : Thread nD τ) (mAdj t) fullShare (iblk m c 1 t) := by
  unfold Dat.leavesExact; rw [live_1 t, after_1]
theorem leaves_2 (c : Dev nD) (t : Fin cfg0.N) : (dats m 0 c).leavesExact 2 t = owns (c : Thread nD τ) (mW1 t) fullShare (iblk m c 2 t) := by
  unfold Dat.leavesExact; rw [live_2 t, after_2]
theorem leaves_3 (c : Dev nD) (t : Fin cfg0.N) : (dats m 0 c).leavesExact 3 t = owns (c : Thread nD τ) (mB1 t) fullShare (iblk m c 3 t) := by
  unfold Dat.leavesExact; rw [live_3 t, after_3]
theorem leaves_4 (c : Dev nD) (t : Fin cfg0.N) : (dats m 0 c).leavesExact 4 t = owns (c : Thread nD τ) (mW2 t) fullShare (iblk m c 4 t) := by
  unfold Dat.leavesExact; rw [live_4 t, after_4]
theorem leaves_5 (c : Dev nD) (t : Fin cfg0.N) : (dats m 0 c).leavesExact 5 t = owns (c : Thread nD τ) (mB2 t) fullShare (iblk m c 5 t) := by
  unfold Dat.leavesExact; rw [live_5 t, after_5]
theorem leaves_6 (c : Dev nD) (t : Fin cfg0.N) : (dats m 0 c).leavesExact 6 t = owns (c : Thread nD τ) (mOut t) fullShare (outAt m c t) := by
  unfold Dat.leavesExact; rw [live_6 t, after_6]

/-! ## The first layer's rows, block by block -/

theorem zBlk_congr (c : Dev nD) {k k' : ℕ} (e : k = k') (hk : k < 25) (hk' : k' < 25) : zBlk m c k hk = zBlk m c k' hk' := by
  subst e; rfl

/-- Row `400 · k + x₀` of the first layer is row `x₀` of block `k`. -/
theorem zAll_at (c : Dev nD) (y : S10000x16.Idx) (k : ℕ) (hk : k < 25) (x : S400x16.Idx)
    (h0 : (y (0 : Fin 2)).val = 400 * k + (x (0 : Fin 2)).val) (h1 : (y (1 : Fin 2)).val = (x (1 : Fin 2)).val) :
    zAll m c y = zBlk m c k hk x := by
  have hx : (x (0 : Fin 2)).val < 400 := ValueIdx.idx2_lt0 x
  have e1 : (y (0 : Fin 2)).val / 400 = k := by omega
  have e2 : (ValueIdx.ix2 (⟨(y (0 : Fin 2)).val % 400, Nat.mod_lt _ (by omega)⟩ : Fin 400) (⟨(y (1 : Fin 2)).val, ValueIdx.idx2_lt1 y⟩ : Fin 16) : S400x16.Idx) = x :=
    funext fun a => match a with
      | ⟨0, _⟩ => Fin.ext (by show (y (0 : Fin 2)).val % 400 = (x (0 : Fin 2)).val; omega)
      | ⟨1, _⟩ => Fin.ext h1
  unfold zAll
  exact (congrFun (zBlk_congr m c e1 _ hk) _).trans (congrArg _ e2)

/-- The block of point `t` of phase 0, from that point's own blocks. -/
theorem zBlk_pt (c : Dev nD) (t : Fin cfg0.N) (h : t.val < 25) :
    zBlk m c t.val h = k0_pay3 (iblk m c 1 t) (yAll m c) (iblk m c 3 t) (iblk m c 4 t) := rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mAdj t) fullShare ((dats m 0 c).before 1 t d))
    ∗ (∃ d, owns (c : Thread nD τ) (mW1 t) fullShare ((dats m 0 c).before 2 t d))
    ∗ (∃ d, owns (c : Thread nD τ) (mB1 t) fullShare ((dats m 0 c).before 3 t d))
    ∗ (∃ d, owns (c : Thread nD τ) (mW2 t) fullShare ((dats m 0 c).before 4 t d))
    ∗ (∃ d, owns (c : Thread nD τ) (mB2 t) fullShare ((dats m 0 c).before 5 t d))
    ∗ (∃ d, owns (c : Thread nD τ) (mOut t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The first point. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [Phi_castSucc, Phi_succ, leaves_0, leaves_1, leaves_2, leaves_3, leaves_4, leaves_5, leaves_6]
  have hN : t.val < 50 := lt_of_lt_of_eq t.isLt N50
  have h0 : isFirst (grid0.coords t) := (isFirst_iff t).mpr ht
  have h1 : inPhase0 (grid0.coords t) := (inPhase0_iff t).mpr (by omega)
  have h2 : ¬inPhase1 (grid0.coords t) := fun h => by have := (inPhase1_iff t).mp h; omega
  have hb : ((grid0.coords t) 1).val = 0 := by rw [coords_block t, ht]
  have et : t = pt 0 (by omega) := Fin.ext ht
  rw [show PhiS m c t.val = Pipeline.ΦA spec0 c from by rw [ht]; rfl, PhiA_eq, PhiS_succ]
  iintro ⟨⟨⟨⟨%dy, HY⟩, ⟨%dz, HZ⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runFirst c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) dz).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HY]; · iexists _; iexact HY
  isplitl [HZ]; · iexact HZ
  iintro ⟨H0, H1, H2, H3, H4, H5, ⟨%f8, H6⟩, ⟨%f9, HY⟩, HZ⟩
  isplitl [HY HZ Hg]
  · isplitl [HY HZ]
    · isplitl [HY]
      · unfold owns; iexists _; isplitr; swap; · iexact HY
        ipureintro
        refine (firstY c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) dz f9).trans ?_
        rw [et]; rfl
      · iexists _; isplitr; swap
        · unfold owns; iexists _; isplitr; swap; · iexact HZ
          ipureintro; rfl
        ipureintro
        intro y hy
        have hy' : (y (0 : Fin 2)).val < 400 := by omega
        have hx := firstZ_in c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) dz y
          (ValueIdx.ix2 (⟨(y (0 : Fin 2)).val, hy'⟩ : Fin 400) (⟨(y (1 : Fin 2)).val, ValueIdx.idx2_lt1 y⟩ : Fin 16)) (by rw [hb]; show _ = 400 * 0 + (y (0 : Fin 2)).val; omega) rfl
        refine hx.trans ?_
        rw [zAll_at m c y 0 (by omega) (ValueIdx.ix2 (⟨(y (0 : Fin 2)).val, hy'⟩ : Fin 400) (⟨(y (1 : Fin 2)).val, ValueIdx.idx2_lt1 y⟩ : Fin 16)) (by show _ = 400 * 0 + (y (0 : Fin 2)).val; omega) rfl]
        rw [et]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro
  refine (firstOut c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) dz f8).trans ?_
  rw [outAt_phase0 m c t (by omega), et]; rfl

set_option maxHeartbeats 4000000 in
/-- A later point of phase 0. -/
theorem sound_mid (c : Dev nD) (t : Fin cfg0.N) (ht : t.val ≠ 0) (ht' : t.val < 25) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [Phi_castSucc, Phi_succ, leaves_0, leaves_1, leaves_2, leaves_3, leaves_4, leaves_5, leaves_6]
  have hN : t.val < 50 := lt_of_lt_of_eq t.isLt N50
  have h0 : ¬isFirst (grid0.coords t) := fun h => ht ((isFirst_iff t).mp h)
  have h1 : inPhase0 (grid0.coords t) := (inPhase0_iff t).mpr ht'
  have h2 : ¬inPhase1 (grid0.coords t) := fun h => by have := (inPhase1_iff t).mp h; omega
  have hb : ((grid0.coords t) 1).val = t.val := by rw [coords_block t]; omega
  rw [PhiS_pos m c _ ht, PhiS_succ]
  iintro ⟨⟨⟨HY, ⟨%dz, %hdz, HZ⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runMid c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) dz).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HY]; · iexact HY
  isplitl [HZ]; · iexact HZ
  iintro ⟨H0, H1, H2, H3, H4, H5, ⟨%f8, H6⟩, HY, HZ⟩
  isplitl [HY HZ Hg]
  · isplitl [HY HZ]
    · isplitl [HY]
      · iexact HY
      · iexists _; isplitr; swap
        · unfold owns; iexists _; isplitr; swap; · iexact HZ
          ipureintro; rfl
        ipureintro
        intro y hy
        have hmin : min (t.val + 1) 25 = t.val + 1 := by omega
        rw [hmin] at hy
        by_cases hlow : (y (0 : Fin 2)).val < 400 * t.val
        · refine (midZ_out c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) dz y (by rw [hb]; exact Or.inl hlow)).trans ?_
          exact hdz y (by have : min t.val 25 = t.val := by omega
                          rw [this]; exact hlow)
        · have hy' : (y (0 : Fin 2)).val - 400 * t.val < 400 := by omega
          have hx := midZ_in c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) dz y
            (ValueIdx.ix2 (⟨(y (0 : Fin 2)).val - 400 * t.val, hy'⟩ : Fin 400) (⟨(y (1 : Fin 2)).val, ValueIdx.idx2_lt1 y⟩ : Fin 16))
            (by rw [hb]; show _ = 400 * t.val + ((y (0 : Fin 2)).val - 400 * t.val); omega) rfl
          refine hx.trans ?_
          rw [zAll_at m c y t.val ht' (ValueIdx.ix2 (⟨(y (0 : Fin 2)).val - 400 * t.val, hy'⟩ : Fin 400) (⟨(y (1 : Fin 2)).val, ValueIdx.idx2_lt1 y⟩ : Fin 16))
            (by show _ = 400 * t.val + ((y (0 : Fin 2)).val - 400 * t.val); omega) rfl, zBlk_pt m c t ht']
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro
  refine (midOut c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) dz f8).trans ?_
  rw [outAt_phase0 m c t ht']

set_option maxHeartbeats 4000000 in
/-- A point of phase 1. -/
theorem sound_last (c : Dev nD) (t : Fin cfg0.N) (ht : 25 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [Phi_castSucc, Phi_succ, leaves_0, leaves_1, leaves_2, leaves_3, leaves_4, leaves_5, leaves_6]
  have hN : t.val < 50 := lt_of_lt_of_eq t.isLt N50
  have h0 : ¬isFirst (grid0.coords t) := fun h => by have := (isFirst_iff t).mp h; omega
  have h1 : ¬inPhase0 (grid0.coords t) := fun h => by have := (inPhase0_iff t).mp h; omega
  have h2 : inPhase1 (grid0.coords t) := (inPhase1_iff t).mpr ht
  rw [PhiS_pos m c _ (by omega), PhiS_succ]
  iintro ⟨⟨⟨HY, ⟨%dz, %hdz, HZ⟩⟩, Hg⟩, Ho, ⟨%d0, H0⟩, ⟨%d1, H1⟩, ⟨%d2, H2⟩, ⟨%d3, H3⟩, ⟨%d4, H4⟩, ⟨%d5, H5⟩, ⟨%d6, H6⟩⟩
  obtain rfl : dz = zAll m c := hdz.eq_zAll m ht
  iapply ((runLast c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) (zAll m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HY]; · iexact HY
  isplitl [HZ]; · iexact HZ
  iintro ⟨H0, H1, H2, H3, H4, H5, ⟨%f8, H6⟩, HY, HZ⟩
  isplitl [HY HZ Hg]
  · isplitl [HY HZ]
    · isplitl [HY]
      · iexact HY
      · iexists _; isplitr; swap
        · iexact HZ
        ipureintro; exact ZFilled.of_eq m c _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro
  refine (lastOut c (grid0.coords t) (mX t) (hX t) (mAdj t) (hAdj t) (mW1 t) (hW1 t) (mB1 t) (hB1 t) (mW2 t) (hW2 t) (mB2 t) (hB2 t) (mOut t) (hOut t) mY hY mZ hZ h0 h1 h2 (iblk m c 0 t) (iblk m c 1 t) (iblk m c 2 t) (iblk m c 3 t) (iblk m c 4 t) (iblk m c 5 t) (yAll m c) (zAll m c) f8).trans ?_
  rw [outAt_phase1 m c t (by omega)]

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · by_cases ht' : t.val < 25
    · exact sound_mid m c t ht ht'
    · exact sound_last m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]

/-- After the last point the invariant gives both scratches back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, N50]; omega), PhiA_eq]
  iintro ⟨⟨HY, ⟨%dz, -, HZ⟩⟩, Hg⟩
  isplitl [HY HZ]
  · isplitl [HY]
    · iexists _; iexact HY
    iexists _; iexact HZ
  iexact Hg

/-! ## The run and the frame -/

set_option backward.isDefEq.respectTransparency.types false in
/-- Every weakly fair execution of the program terminates, every array of the pipeline ends at what the proof data say
    (the output array at the blocks written back), and the host's closing operations have been applied to that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  The two-layer graph convolution with a row-wise log-softmax, as ONE function of the six argument arrays,
  index by index on the extended reals:

    y  = x · W1                          (10000 × 32)
    h  = max (adj · y + b1, 0)           (10000 × 32)
    z  = h · W2                          (10000 × 16)
    g  = max (adj · z + b2, 0)           (10000 × 16)
    out r q = (g r q − M r) − log (Σ_q' exp (g r q' − M r)),   M r = max_q g r q  (folded from −∞).

  Each layer acts on ONE row of the adjacency at a time, so the layers are stated row-wise first (`projRow`,
  `actRow`, `lsmRow`): a row block of the kernel and the whole-array reference apply the same row function to
  the same row. Every sum is a finite sum over one coordinate; nothing here needs finiteness of the inputs,
  because both programs compute these very sums and differ only in how the rows are tiled.
-/
import Idealize.ShloMosaic.Lib.ValueIdx
import Idealize.ShloMosaic.PureOps.Ideal.Laws

noncomputable section

open scoped BigOperators

namespace Cert.Gcn

open Idealize.ShloMosaic Idealize.ShloMosaic.ValueIdx

/-- A matrix of extended reals over a literal rank-2 shape. -/
abbrev Mat (a b : Nat) := (⟨2, ![a, b]⟩ : Shape).Idx → EReal
/-- A vector of extended reals over a literal rank-1 shape. -/
abbrev Vc (a : Nat) := (⟨1, ![a]⟩ : Shape).Idx → EReal

/-- The f32 zero word's value (the rectifier's threshold; it is the extended real 0). -/
abbrev zeroW : EReal := Ideal.ofBits .f32 0x00000000#32
/-- The f32 −∞ word's value (where a row's maximum is folded from). -/
abbrev negInfW : EReal := Ideal.ofBits .f32 0xFF800000#32

/-! ## The layers on one adjacency row -/

/-- First layer on one row `a` of the adjacency: `(max (a · y + b1, 0)) · W2` at class `q`. -/
def projRow (a : Fin 10000 → EReal) (y : Fin 10000 → Fin 32 → EReal) (b1 : Fin 32 → EReal) (w2 : Fin 32 → Fin 16 → EReal)
    (q : Fin 16) : EReal :=
  ∑ j : Fin 32, max ((∑ l : Fin 10000, a l * y l j) + b1 j) zeroW * w2 j q

/-- Second layer on one row `a` of the adjacency, before the softmax: `max (a · z + b2, 0)` at class `q`. -/
def actRow (a : Fin 10000 → EReal) (z : Fin 10000 → Fin 16 → EReal) (b2 : Fin 16 → EReal) (q : Fin 16) : EReal :=
  max ((∑ k : Fin 10000, a k * z k q) + b2 q) zeroW

/-- A row's maximum, folded from −∞. -/
def rowMax (g : Fin 16 → EReal) : EReal := (Finset.univ : Finset (Fin 16)).fold max negInfW g

/-- The log-softmax of one row `g` of sixteen classes, shifted by the row's maximum. -/
def lsmRow (g : Fin 16 → EReal) (q : Fin 16) : EReal :=
  (g q - rowMax g) - Ideal.log (∑ q' : Fin 16, Ideal.exp (g q' - rowMax g))

/-! ## The whole arrays -/

variable (x : Mat 10000 128) (adj : Mat 10000 10000) (w1 : Mat 128 32) (b1 : Vc 32) (w2 : Mat 32 16) (b2 : Vc 16)

/-- The feature transform: row `l` of `x` against column `j` of `W1`. -/
def feat (l : Fin 10000) (j : Fin 32) : EReal := ∑ i : Fin 128, x (ix2 l i) * w1 (ix2 i j)

/-- The first layer's projection at node `k`, class `q`. -/
def proj (k : Fin 10000) (q : Fin 16) : EReal :=
  projRow (fun l => adj (ix2 k l)) (feat x w1) (fun j => b1 (ix1 j)) (fun j q => w2 (ix2 j q)) q

/-- The second layer at node `r`, before the softmax. -/
def act (r : Fin 10000) (q : Fin 16) : EReal :=
  actRow (fun k => adj (ix2 r k)) (proj x adj w1 b1 w2) (fun q => b2 (ix1 q)) q

/-- The result at node `r`, class `q`. -/
def out (r : Fin 10000) (q : Fin 16) : EReal := lsmRow (act x adj w1 b1 w2 b2 r) q

/-- The result array. -/
def result : Mat 10000 16 := fun i => out x adj w1 b1 w2 b2 (i 0) (i 1)

theorem result_apply (r : Fin 10000) (q : Fin 16) : result x adj w1 b1 w2 b2 (ix2 r q) = out x adj w1 b1 w2 b2 r q := rfl

end Cert.Gcn

end
-- ==== Proof.KernelPay.lean ====
/-
  The kernel body's five stored values, read at one index on the extended reals: the feature transform is a row of
  `x` against a column of `W1`; a phase-0 row block is the first layer's row function of the block's adjacency rows;
  a phase-1 row block is the log-softmax of the second layer's row function of the block's adjacency rows.
-/
import proofs.«125999_g90108413870386_cont_sun_c4_37_7_alg».proof.Proof.Gen.KernelIdeal.Skeleton
import proofs.«125999_g90108413870386_cont_sun_c4_37_7_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-!
Each payload is opened once and read operation by operation. The pointwise operations read through at an index by
definition; a matrix product into the zero splat is the sum over its one contraction coordinate (re-indexed through
`contrEquiv1`, the operand indices read at the literal axes); the bias row is broadcast down the block; a lane maximum
is the fold of `max` from −∞ over the row and a lane sum the sum over the row; the keepdims column of either is read
back across the row's sixteen classes.
-/

/-! ### The product S10000x128 · S128x32: its operand indices at the literal axes, and the product at (r, c) -/

theorem lhs_xw_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_xw_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs_xw_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs_xw_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The product into the zero splat at (r, c): row `r` of the left operand against column `c` of the right. -/
theorem mm_xw_apply {φ₁ φ₂ : FTy} (x : FVec Ideal S10000x128 φ₁) (w : FVec Ideal S128x32 φ₂) (r : Fin 10000) (c : Fin 32) :
    matmul dot_S10000x128_S128x32_S10000x32_1_0_0_1_n_n none x w (constant (F := Ideal) S10000x32 .f32 0x00000000#32) (ix2 r c)
      = ∑ k : Fin 128, x (ix2 r k) * w (ix2 k c) := by
  refine (Ideal.matmul_constant_zero_apply dot_S10000x128_S128x32_S10000x32_1_0_0_1_n_n none x w (ix2 r c)).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ix2 r c) ((ValueIdx.contrEquiv1 dot_S10000x128_S128x32_S10000x32_1_0_0_1_n_n 128 rfl rfl).symm k) = ix2 r k := funext fun a => Fin.ext (by
    match a with
    | ⟨0, _⟩ => exact lhs_xw_0 _ _
    | ⟨1, _⟩ => exact (lhs_xw_1 _ _).trans hk)
  have er : dot_S10000x128_S128x32_S10000x32_1_0_0_1_n_n.rhsIdx (ix2 r c) ((ValueIdx.contrEquiv1 dot_S10000x128_S128x32_S10000x32_1_0_0_1_n_n 128 rfl rfl).symm k) = ix2 k c := funext fun a => Fin.ext (by
    match a with
    | ⟨0, _⟩ => exact (rhs_xw_0 _ _).trans hk
    | ⟨1, _⟩ => exact rhs_xw_1 _ _)
  rw [el, er]

/-- The stored feature transform at (l, j): row `l` of `x` against column `j` of `W1`. -/
theorem pay1_apply (x : Vec Ideal S10000x128 .f32) (w1 : Vec Ideal S128x32 .f32) (l : Fin 10000) (j : Fin 32) :
    k0_pay1 (F := Ideal) x w1 (ix2 l j) = Cert.Gcn.feat x w1 l j := by
  unfold k0_pay1
  rw [shapeCast_self]
  exact mm_xw_apply x w1 l j

/-! ### The product S400x10000 · S10000x32: its operand indices at the literal axes, and the product at (r, c) -/

theorem lhs_ay_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_ay_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_ay_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_ay_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The product into the zero splat at (r, c): row `r` of the left operand against column `c` of the right. -/
theorem mm_ay_apply {φ₁ φ₂ : FTy} (x : FVec Ideal S400x10000 φ₁) (w : FVec Ideal S10000x32 φ₂) (r : Fin 400) (c : Fin 32) :
    matmul dot_S400x10000_S10000x32_S400x32_1_0_0_1_n_n none x w (constant (F := Ideal) S400x32 .f32 0x00000000#32) (ix2 r c)
      = ∑ k : Fin 10000, x (ix2 r k) * w (ix2 k c) := by
  refine (Ideal.matmul_constant_zero_apply dot_S400x10000_S10000x32_S400x32_1_0_0_1_n_n none x w (ix2 r c)).trans ?_
  rw [← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ix2 r c) ((ValueIdx.contrEquiv1 dot_S400x10000_S10000x32_S400x32_1_0_0_1_n_n 10000 rfl rfl).symm k) = ix2 r k := funext fun a => Fin.ext (by
    match a with
    | ⟨0, _⟩ => exact lhs_ay_0 _ _
    | ⟨1, _⟩ => exact (lhs_ay_1 _ _).trans hk)
  have er : dot_S400x10000_S10000x32_S400x32_1_0_0_1_n_n.rhsIdx (ix2 r c) ((ValueIdx.contrEquiv1 dot_S400x10000_S10000x32_S400x32_1_0_0_1_n_n 10000 rfl rfl).symm k) = ix2 k c := funext fun a => Fin.ext (by
    match a with
    | ⟨0, _⟩ => exact (rhs_ay_0 _ _).trans hk
    | ⟨1, _⟩ => exact rhs_ay_1 _ _)
  rw [el, er]

/-! ### The product S400x32 · S32x16: its operand indices at the literal axes, and the product at (r, c) -/

theorem lhs_hw_0 (i : S400x16.Idx) (q : dot_S400x32_S32x16_S400x16_1_0_0_1_n_n.contr.Idx) :
    (dot_S400x32_S32x16_S400x16_1_0_0_1_n_n.lhsIdx i q 0).val = (i 0).val := by
  unfold DotDims.lhsIdx
  rw [dif_neg (show ¬(0 : Fin S400x32.rank) ∈ dot_S400x32_S32x16_S400x16_1_0_0_1_n_n.lhsBatch by decide), dif_pos (show (0 : Fin S400x32.rank) ∈ dot_S400x32_S32x16_S400x16_1_0_0_1_n_n.lhsNonContracting by decide)]
  rfl
theorem lhs_hw_1 (i : S400x16.Idx) (q : dot_S400x32_S32x16_S400x16_1_0_0_1_n_n.contr.Idx) :
    (dot_S400x32_S32x16_S400x16_1_0_0_1_n_n.lhsIdx i q 1).val = (q ⟨0, by decide⟩).val :=
  dot_S400x32_S32x16_S400x16_1_0_0_1_n_n.lhsIdx_val_of_single rfl i q
theorem rhs_hw_0 (i : S400x16.Idx) (q : dot_S400x32_S32x16_S400x16_1_0_0_1_n_n.contr.Idx) :
    (dot_S400x32_S32x16_S400x16_1_0_0_1_n_n.rhsIdx i q 0).val = (q ⟨0, by decide⟩).val :=
  dot_S400x32_S32x16_S400x16_1_0_0_1_n_n.rhsIdx_val_of_single rfl i q
theorem rhs_hw_1 (i : S400x16.Idx) (q : dot_S400x32_S32x16_S400x16_1_0_0_1_n_n.contr.Idx) :
    (dot_S400x32_S32x16_S400x16_1_0_0_1_n_n.rhsIdx i q 1).val = (i 1).val := by
  unfold DotDims.rhsIdx
  rw [dif_neg (show ¬(1 : Fin S32x16.rank) ∈ dot_S400x32_S32x16_S400x16_1_0_0_1_n_n.rhsBatch by decide), dif_pos (show (1 : Fin S32x16.rank) ∈ dot_S400x32_S32x16_S400x16_1_0_0_1_n_n.rhsNonContracting by decide)]
  rfl

/-- The product into the zero splat at (r, c): row `r` of the left operand against column `c` of the right. -/
theorem mm_hw_apply {φ₁ φ₂ : FTy} (x : FVec Ideal S400x32 φ₁) (w : FVec Ideal S32x16 φ₂) (r : Fin 400) (c : Fin 16) :
    matmul dot_S400x32_S32x16_S400x16_1_0_0_1_n_n none x w (constant (F := Ideal) S400x16 .f32 0x00000000#32) (ix2 r c)
      = ∑ k : Fin 32, x (ix2 r k) * w (ix2 k c) := by
  refine (Ideal.matmul_constant_zero_apply dot_S400x32_S32x16_S400x16_1_0_0_1_n_n none x w (ix2 r c)).trans ?_
  rw [← Equiv.sum_comp (ValueIdx.contrEquiv1 dot_S400x32_S32x16_S400x16_1_0_0_1_n_n 32 rfl rfl).symm]
  refine Finset.sum_congr rfl fun k _ => ?_
  have hk := ValueIdx.contrEquiv1_symm_val dot_S400x32_S32x16_S400x16_1_0_0_1_n_n 32 rfl rfl k
  have el : dot_S400x32_S32x16_S400x16_1_0_0_1_n_n.lhsIdx (ix2 r c) ((ValueIdx.contrEquiv1 dot_S400x32_S32x16_S400x16_1_0_0_1_n_n 32 rfl rfl).symm k) = ix2 r k := funext fun a => Fin.ext (by
    match a with
    | ⟨0, _⟩ => exact lhs_hw_0 _ _
    | ⟨1, _⟩ => exact (lhs_hw_1 _ _).trans hk)
  have er : dot_S400x32_S32x16_S400x16_1_0_0_1_n_n.rhsIdx (ix2 r c) ((ValueIdx.contrEquiv1 dot_S400x32_S32x16_S400x16_1_0_0_1_n_n 32 rfl rfl).symm k) = ix2 k c := funext fun a => Fin.ext (by
    match a with
    | ⟨0, _⟩ => exact (rhs_hw_0 _ _).trans hk
    | ⟨1, _⟩ => exact rhs_hw_1 _ _)
  rw [el, er]

/-! ### The first layer on a block of adjacency rows -/

/-- The rectified affine row at (p, j): row `p` of the block against column `j` of `y`, plus the bias, cut at zero. -/
theorem hid_apply (a : Vec Ideal S400x10000 .f32) (y : Vec Ideal S10000x32 .f32) (b : Vec Ideal S1x32 .f32)
    (hb : FTy.bits .bf16 < FTy.bits .f32) (h1 : S1x32.ShapeCasts S1x32) (h2 : S1x32.Broadcasts S400x32) (p : Fin 400) (j : Fin 32) :
    maximumf (addf (matmul dot_S400x10000_S10000x32_S400x32_1_0_0_1_n_n none (truncf .bf16 a hb) (truncf .bf16 y hb) (constant (F := Ideal) S400x32 .f32 0x00000000#32))
        (broadcastTo S400x32 (shapeCast S1x32 b h1) h2)) (broadcast S400x32 (Scalar.ofBits (F := Ideal) .f32 0x00000000#32)) (ix2 p j)
      = max ((∑ l : Fin 10000, a (ix2 p l) * y (ix2 l j)) + b (ix2 0 j)) Cert.Gcn.zeroW := by
  rw [maximumf_apply, addf_apply, mm_ay_apply, shapeCast_self, broadcastTo_1b_ab_apply]
  rfl

/-- A phase-0 row block at (p, q): the first layer's row function of the block's adjacency row `p`. -/
theorem pay2_apply (a : Vec Ideal S400x10000 .f32) (y : Vec Ideal S10000x32 .f32) (b : Vec Ideal S1x32 .f32) (w2 : Vec Ideal S32x16 .f32)
    (p : Fin 400) (q : Fin 16) :
    k0_pay2 (F := Ideal) a y b w2 (ix2 p q)
      = Cert.Gcn.projRow (fun l => a (ix2 p l)) (fun l j => y (ix2 l j)) (fun j => b (ix2 0 j)) (fun j q => w2 (ix2 j q)) q := by
  unfold k0_pay2
  refine (mm_hw_apply _ w2 p q).trans ?_
  unfold Cert.Gcn.projRow
  refine Finset.sum_congr rfl fun j _ => ?_
  rw [hid_apply]

/-- The same value as it goes to its slice of the second scratch. -/
theorem pay3_apply (a : Vec Ideal S400x10000 .f32) (y : Vec Ideal S10000x32 .f32) (b : Vec Ideal S1x32 .f32) (w2 : Vec Ideal S32x16 .f32)
    (p : Fin 400) (q : Fin 16) :
    k0_pay3 (F := Ideal) a y b w2 (ix2 p q)
      = Cert.Gcn.projRow (fun l => a (ix2 p l)) (fun l j => y (ix2 l j)) (fun j => b (ix2 0 j)) (fun j q => w2 (ix2 j q)) q := by
  unfold k0_pay3
  rw [shapeCast_self]
  exact pay2_apply a y b w2 p q

/-- The same value as it goes to the output block (a leading unit axis added). -/
theorem pay4_apply (a : Vec Ideal S400x10000 .f32) (y : Vec Ideal S10000x32 .f32) (b : Vec Ideal S1x32 .f32) (w2 : Vec Ideal S32x16 .f32)
    (p : Fin 400) (q : Fin 16) :
    k0_pay4 (F := Ideal) a y b w2 (ix3 0 p q)
      = Cert.Gcn.projRow (fun l => a (ix2 p l)) (fun l j => y (ix2 l j)) (fun j => b (ix2 0 j)) (fun j q => w2 (ix2 j q)) q := by
  unfold k0_pay4
  exact (shapeCast_ab_1ab_apply _ _ 0 p q).trans (pay2_apply a y b w2 p q)

/-! ### The product S400x10000 · S10000x16: its operand indices at the literal axes, and the product at (r, c) -/

theorem lhs_az_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_az_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_az_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_az_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The product into the zero splat at (r, c): row `r` of the left operand against column `c` of the right. -/
theorem mm_az_apply {φ₁ φ₂ : FTy} (x : FVec Ideal S400x10000 φ₁) (w : FVec Ideal S10000x16 φ₂) (r : Fin 400) (c : Fin 16) :
    matmul dot_S400x10000_S10000x16_S400x16_1_0_0_1_n_n none x w (constant (F := Ideal) S400x16 .f32 0x00000000#32) (ix2 r c)
      = ∑ k : Fin 10000, x (ix2 r k) * w (ix2 k c) := by
  refine (Ideal.matmul_constant_zero_apply dot_S400x10000_S10000x16_S400x16_1_0_0_1_n_n none x w (ix2 r c)).trans ?_
  rw [← Equiv.sum_comp (ValueIdx.contrEquiv1 dot_S400x10000_S10000x16_S400x16_1_0_0_1_n_n 10000 rfl rfl).symm]
  refine Finset.sum_congr rfl fun k _ => ?_
  have hk := ValueIdx.contrEquiv1_symm_val dot_S400x10000_S10000x16_S400x16_1_0_0_1_n_n 10000 rfl rfl k
  have el : dot_S400x10000_S10000x16_S400x16_1_0_0_1_n_n.lhsIdx (ix2 r c) ((ValueIdx.contrEquiv1 dot_S400x10000_S10000x16_S400x16_1_0_0_1_n_n 10000 rfl rfl).symm k) = ix2 r k := funext fun a => Fin.ext (by
    match a with
    | ⟨0, _⟩ => exact lhs_az_0 _ _
    | ⟨1, _⟩ => exact (lhs_az_1 _ _).trans hk)
  have er : dot_S400x10000_S10000x16_S400x16_1_0_0_1_n_n.rhsIdx (ix2 r c) ((ValueIdx.contrEquiv1 dot_S400x10000_S10000x16_S400x16_1_0_0_1_n_n 10000 rfl rfl).symm k) = ix2 k c := funext fun a => Fin.ext (by
    match a with
    | ⟨0, _⟩ => exact (rhs_az_0 _ _).trans hk
    | ⟨1, _⟩ => exact rhs_az_1 _ _)
  rw [el, er]

/-! ### The keepdims column forms: a vector as a one-column matrix, and that column over sixteen -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The second layer on a block of adjacency rows, and its log-softmax -/

/-- The rectified affine row at (p, q): the second layer's row function of the block's adjacency row `p`. -/
theorem act_apply (a : Vec Ideal S400x10000 .f32) (z : Vec Ideal S10000x16 .f32) (b : Vec Ideal S1x16 .f32)
    (hb : FTy.bits .bf16 < FTy.bits .f32) (h1 : S1x16.ShapeCasts S1x16) (h2 : S1x16.Broadcasts S400x16) (p : Fin 400) (q : Fin 16) :
    maximumf (addf (matmul dot_S400x10000_S10000x16_S400x16_1_0_0_1_n_n none (truncf .bf16 a hb) (truncf .bf16 z hb) (constant (F := Ideal) S400x16 .f32 0x00000000#32))
        (broadcastTo S400x16 (shapeCast S1x16 b h1) h2)) (broadcast S400x16 (Scalar.ofBits (F := Ideal) .f32 0x00000000#32)) (ix2 p q)
      = Cert.Gcn.actRow (fun k => a (ix2 p k)) (fun k q => z (ix2 k q)) (fun q => b (ix2 0 q)) q := by
  rw [maximumf_apply, addf_apply, mm_az_apply, shapeCast_self, broadcastTo_1b_ab_apply]
  rfl

/-- The lane maximum of a block at row `p`: the row's maximum, folded from −∞. -/
theorem rowMax_apply (g : FVec Ideal S400x16 .f32) (hr : S400x16.Reduces [1] S400) (hφ : FKind.Formats .f32)
    (hm : (0xFF800000#32 : BitVec 32) = 0xFF800000#32) (p : Fin 400) :
    multiReduction (F := Ideal) .maximumf [1] S400 g 0xFF800000#32 hr hφ hm (ix1 p) = Cert.Gcn.rowMax (fun q => g (ix2 p q)) := by
  refine (Ideal.multiReduction_maximumf_single g 0xFF800000#32 hr hφ hm (ix1 p)).trans ?_
  unfold Cert.Gcn.rowMax
  refine congrArg (fun f => (Finset.univ : Finset (Fin 16)).fold max Cert.Gcn.negInfW f) (funext fun q => congrArg g ?_)
  exact funext fun d => Fin.ext (by match d with | ⟨0, _⟩ => rfl | ⟨1, _⟩ => rfl)

/-- The lane sum of a block at row `p`: the sum over the row's sixteen classes. -/
theorem rowSum_apply (e : FVec Ideal S400x16 .f32) (hr : S400x16.Reduces [1] S400) (hφ : FKind.Formats .f32)
    (hs : (0x00000000#32 : BitVec 32) = 0x00000000#32) (p : Fin 400) :
    multiReduction (F := Ideal) .add [1] S400 e 0x00000000#32 hr hφ hs (ix1 p) = ∑ q : Fin 16, e (ix2 p q) := by
  refine (Ideal.multiReduction_add_single e 0x00000000#32 hr hφ hs (ix1 p)).trans ?_
  refine Finset.sum_congr rfl fun q _ => congrArg e ?_
  exact funext fun d => Fin.ext (by match d with | ⟨0, _⟩ => rfl | ⟨1, _⟩ => rfl)

/-- The block shifted by its rows' maxima, at (p, q). -/
theorem shift_apply (g : FVec Ideal S400x16 .f32) (hr : S400x16.Reduces [1] S400) (hφ : FKind.Formats .f32)
    (hm : (0xFF800000#32 : BitVec 32) = 0xFF800000#32) (hc : S400.ShapeCasts S400x1) (hbc : S400x1.Broadcasts S400x16)
    (p : Fin 400) (q : Fin 16) :
    subf g (broadcastTo S400x16 (shapeCast S400x1 (multiReduction (F := Ideal) .maximumf [1] S400 g 0xFF800000#32 hr hφ hm) hc) hbc) (ix2 p q)
      = g (ix2 p q) - Cert.Gcn.rowMax (fun q' => g (ix2 p q')) := by
  rw [subf_apply, broadcastTo_a1_ab_apply, shapeCast_a_a1_apply, rowMax_apply]

/-- The log-softmax of a block, with a leading unit axis added, at (0, p, q): the log-softmax of row `p`. -/
theorem lsm_apply (g : FVec Ideal S400x16 .f32) (hr : S400x16.Reduces [1] S400) (hφ : FKind.Formats .f32)
    (hm : (0xFF800000#32 : BitVec 32) = 0xFF800000#32) (hs : (0x00000000#32 : BitVec 32) = 0x00000000#32)
    (hc : S400.ShapeCasts S400x1) (hbc : S400x1.Broadcasts S400x16) (hu : S400x16.ShapeCasts S1x400x16) (p : Fin 400) (q : Fin 16) :
    shapeCast S1x400x16
        (subf (subf g (broadcastTo S400x16 (shapeCast S400x1 (multiReduction (F := Ideal) .maximumf [1] S400 g 0xFF800000#32 hr hφ hm) hc) hbc))
          (broadcastTo S400x16 (log (shapeCast S400x1 (multiReduction (F := Ideal) .add [1] S400
            (exp (subf g (broadcastTo S400x16 (shapeCast S400x1 (multiReduction (F := Ideal) .maximumf [1] S400 g 0xFF800000#32 hr hφ hm) hc) hbc)))
            0x00000000#32 hr hφ hs) hc)) hbc)) hu (ix3 0 p q)
      = Cert.Gcn.lsmRow (fun q' => g (ix2 p q')) q := by
  refine (shapeCast_ab_1ab_apply _ hu 0 p q).trans ?_
  rw [subf_apply, shift_apply, broadcastTo_a1_ab_apply]
  unfold Cert.Gcn.lsmRow
  refine congrArg (fun t => g (ix2 p q) - Cert.Gcn.rowMax (fun q' => g (ix2 p q')) - t) ?_
  show Ideal.log (shapeCast S400x1 _ hc (ix2 p 0)) = _
  rw [shapeCast_a_a1_apply, rowSum_apply]
  refine congrArg Ideal.log (Finset.sum_congr rfl fun q' _ => ?_)
  show Ideal.exp (subf g _ (ix2 p q')) = _
  rw [shift_apply]

/-- A phase-1 row block at (0, p, q): the log-softmax of the second layer's row function of the block's adjacency row `p`. -/
theorem pay5_apply (a : Vec Ideal S400x10000 .f32) (z : Vec Ideal S10000x16 .f32) (b : Vec Ideal S1x16 .f32) (p : Fin 400) (q : Fin 16) :
    k0_pay5 (F := Ideal) a z b (ix3 0 p q)
      = Cert.Gcn.lsmRow (Cert.Gcn.actRow (fun k => a (ix2 p k)) (fun k q => z (ix2 k q)) (fun q => b (ix2 0 q))) q := by
  unfold k0_pay5
  refine (lsm_apply _ _ _ _ _ _ _ _ p q).trans ?_
  exact congrArg (fun g => Cert.Gcn.lsmRow g q) (funext fun q' => act_apply a z b _ _ _ p q')

end Cert.KernelIdeal.Pay

end
-- ==== Proof.KernelBlocks.lean ====
/-
  The region's carried arrays and output blocks at one index, in terms of the six argument arrays: the first scratch
  is the feature transform, the second scratch the first layer, the output block of a phase-0 point the first layer's
  rows of its block, and the output block of a phase-1 point the result's rows of its block. Each input window's block is
  read off its argument array: the adjacency's block at point t is rows 400 · (t % 25) … of the array, the other
  windows' blocks are their whole arrays (the two bias rows through the host's reshape to one row).
-/
import proofs.«125999_g90108413870386_cont_sun_c4_37_7_alg».proof.Proof.KIData
import proofs.«125999_g90108413870386_cont_sun_c4_37_7_alg».proof.Proof.KernelPay
import proofs.«125999_g90108413870386_cont_sun_c4_37_7_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The six argument arrays as launched, as plain matrices and vectors of extended reals. -/
abbrev aX (c : Dev nD) : Cert.Gcn.Mat 10000 128 := m ((c.tc : Thread nD τ).loc main_arg0)
abbrev aAdj (c : Dev nD) : Cert.Gcn.Mat 10000 10000 := m ((c.tc : Thread nD τ).loc main_arg1)
abbrev aW1 (c : Dev nD) : Cert.Gcn.Mat 128 32 := m ((c.tc : Thread nD τ).loc main_arg2)
abbrev aB1 (c : Dev nD) : Cert.Gcn.Vc 32 := m ((c.tc : Thread nD τ).loc main_arg3)
abbrev aW2 (c : Dev nD) : Cert.Gcn.Mat 32 16 := m ((c.tc : Thread nD τ).loc main_arg4)
abbrev aB2 (c : Dev nD) : Cert.Gcn.Vc 16 := m ((c.tc : Thread nD τ).loc main_arg5)

/-! ### The windows' index maps over the grid -/

/-- Every input window but the adjacency's sits at block (0, 0) at every point; the adjacency's at row block `t % 25`. -/
theorem idx_facts : ∀ t : Fin cfg0.N,
    win0_0.index t (0 : Fin 2) = 0 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ### Each input window's block, read at an index off its argument array -/

/-- The block of `x` at any point is `x`. -/
theorem blkX (c : Dev nD) (t : Fin cfg0.N) (l : Fin 10000) (i : Fin 128) :
    (iblk m c 0 t : Vec Ideal S10000x128 .f32) (ix2 l i) = aX m c (ix2 l i) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 10000 + 1 * l.val = l.val; rw [e0]; omega
  | ⟨1, _⟩ => show win0_0.index t 1 * 128 + 1 * i.val = i.val; rw [e1]; omega

/-- The adjacency's block at point `t` is rows `400 · (t % 25) …` of the adjacency. -/
theorem blkAdj (c : Dev nD) (t : Fin cfg0.N) (p : Fin 400) (l : Fin 10000) (r : Fin 10000)
    (hr : r.val = 400 * (t.val % 25) + p.val) :
    (iblk m c 1 t : Vec Ideal S400x10000 .f32) (ix2 p l) = aAdj m c (ix2 r l) := by
  obtain ⟨-, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 400 + 1 * p.val = r.val; rw [e0, hr]; omega
  | ⟨1, _⟩ => show win0_1.index t 1 * 10000 + 1 * l.val = l.val; rw [e1]; omega

/-- The block of `W1` at any point is `W1`. -/
theorem blkW1 (c : Dev nD) (t : Fin cfg0.N) (i : Fin 128) (j : Fin 32) :
    (iblk m c 2 t : Vec Ideal S128x32 .f32) (ix2 i j) = aW1 m c (ix2 i j) := by
  obtain ⟨-, -, -, -, e0, e1, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 128 + 1 * i.val = i.val; rw [e0]; omega
  | ⟨1, _⟩ => show win0_2.index t 1 * 32 + 1 * j.val = j.val; rw [e1]; omega

/-- The block of `W2` at any point is `W2`. -/
theorem blkW2 (c : Dev nD) (t : Fin cfg0.N) (j : Fin 32) (q : Fin 16) :
    (iblk m c 4 t : Vec Ideal S32x16 .f32) (ix2 j q) = aW2 m c (ix2 j q) := by
  obtain ⟨-, -, -, -, -, -, -, -, e0, e1, -⟩ := idx_facts t
  unfold iblk
  rw [View.read_apply]
  show V m c main_arg4 _ = m (c.tc.loc main_arg4) _
  rw [V_main_arg4]
  congr 1
  funext a
  apply Fin.ext
  match a with
  | ⟨0, _⟩ => show win0_4.index t 0 * 32 + 1 * j.val = j.val; rw [e0]; omega
  | ⟨1, _⟩ => show win0_4.index t 1 * 16 + 1 * q.val = q.val; rw [e1]; omega

/-- The first bias as the region finds it: the argument vector as one row. -/
theorem V_v0 (c : Dev nD) : (V m c main_v0 : S1x32.Idx → EReal) = shapeCast S1x32 (aB1 m c) Gen.shapeCasts_S32_S1x32 := by
  show StableHlo.after hostOps0 (fun b => m (c, b)) (Proc.devRef .tc main_v0) = _
  after_results
  rfl

/-- The second bias as the region finds it: the argument vector as one row. -/
theorem V_v1 (c : Dev nD) : (V m c main_v1 : S1x16.Idx → EReal) = shapeCast S1x16 (aB2 m c) Gen.shapeCasts_S16_S1x16 := by
  show StableHlo.after hostOps0 (fun b => m (c, b)) (Proc.devRef .tc main_v1) = _
  after_results
  rfl

/-- The block of the first bias row at any point, at (0, j), is the bias at `j`. -/
theorem blkB1 (c : Dev nD) (t : Fin cfg0.N) (j : Fin 32) :
    (iblk m c 3 t : Vec Ideal S1x32 .f32) (ix2 0 j) = aB1 m c (ix1 j) := by
  obtain ⟨-, -, -, -, -, -, e0, e1, -⟩ := idx_facts t
  unfold iblk
  rw [View.read_apply]
  show (V m c main_v0 : S1x32.Idx → EReal) _ = _
  rw [V_v0]
  refine Eq.trans (congrArg (shapeCast S1x32 (aB1 m c) Gen.shapeCasts_S32_S1x32) (?_ : _ = ix2 (0 : Fin 1) j))
    (shapeCast_a_1a_apply _ _ 0 j)
  funext a
  apply Fin.ext
  match a with
  | ⟨0, _⟩ => show win0_3.index t 0 * 1 + 1 * 0 = 0; rw [e0]
  | ⟨1, _⟩ => show win0_3.index t 1 * 32 + 1 * j.val = j.val; rw [e1]; omega

/-- The block of the second bias row at any point, at (0, q), is the bias at `q`. -/
theorem blkB2 (c : Dev nD) (t : Fin cfg0.N) (q : Fin 16) :
    (iblk m c 5 t : Vec Ideal S1x16 .f32) (ix2 0 q) = aB2 m c (ix1 q) := by
  obtain ⟨-, -, -, -, -, -, -, -, -, -, e0, e1⟩ := idx_facts t
  unfold iblk
  rw [View.read_apply]
  show (V m c main_v1 : S1x16.Idx → EReal) _ = _
  rw [V_v1]
  refine Eq.trans (congrArg (shapeCast S1x16 (aB2 m c) Gen.shapeCasts_S16_S1x16) (?_ : _ = ix2 (0 : Fin 1) q))
    (shapeCast_a_1a_apply _ _ 0 q)
  funext a
  apply Fin.ext
  match a with
  | ⟨0, _⟩ => show win0_5.index t 0 * 1 + 1 * 0 = 0; rw [e0]
  | ⟨1, _⟩ => show win0_5.index t 1 * 16 + 1 * q.val = q.val; rw [e1]; omega

/-! ### The row functions respect equality of their arguments -/

theorem projRow_congr {a a' : Fin 10000 → EReal} {y y' : Fin 10000 → Fin 32 → EReal} {b b' : Fin 32 → EReal}
    {w w' : Fin 32 → Fin 16 → EReal} (ha : a = a') (hy : y = y') (hb : b = b') (hw : w = w') (q : Fin 16) :
    Cert.Gcn.projRow a y b w q = Cert.Gcn.projRow a' y' b' w' q := by
  subst ha hy hb hw; rfl

theorem actRow_congr {a a' : Fin 10000 → EReal} {z z' : Fin 10000 → Fin 16 → EReal} {b b' : Fin 16 → EReal}
    (ha : a = a') (hz : z = z') (hb : b = b') : Cert.Gcn.actRow a z b = Cert.Gcn.actRow a' z' b' := by
  subst ha hz hb; rfl

/-! ### The carried arrays and the output blocks -/

/-- The first scratch is the feature transform. -/
theorem yAll_apply (c : Dev nD) (l : Fin 10000) (j : Fin 32) :
    yAll (F := Ideal) m c (ix2 l j) = Cert.Gcn.feat (aX m c) (aW1 m c) l j := by
  unfold yAll
  refine (Pay.pay1_apply _ _ l j).trans ?_
  unfold Cert.Gcn.feat
  exact Finset.sum_congr rfl fun i _ => congrArg₂ (· * ·) (blkX m c _ l i) (blkW1 m c _ i j)

/-- The first layer's row block `k`, at (p, q): the first layer at row `400 · k + p`. -/
theorem zBlk_apply (c : Dev nD) (k : ℕ) (hk : k < 25) (p : Fin 400) (q : Fin 16) :
    zBlk (F := Ideal) m c k hk (ix2 p q)
      = Cert.Gcn.proj (aX m c) (aAdj m c) (aW1 m c) (aB1 m c) (aW2 m c) ⟨400 * k + p.val, by omega⟩ q := by
  unfold zBlk
  refine (Pay.pay3_apply _ _ _ _ p q).trans ?_
  unfold Cert.Gcn.proj
  exact projRow_congr
    (funext fun l => blkAdj m c _ p l _ (by show 400 * k + p.val = 400 * (k % 25) + p.val; rw [Nat.mod_eq_of_lt hk]))
    (funext fun l => funext fun j => yAll_apply m c l j)
    (funext fun j => blkB1 m c _ j)
    (funext fun j => funext fun q' => blkW2 m c _ j q') q

/-- The second scratch, once filled, is the first layer. -/
theorem zAll_apply (c : Dev nD) (k : Fin 10000) (q : Fin 16) :
    zAll (F := Ideal) m c (ix2 k q) = Cert.Gcn.proj (aX m c) (aAdj m c) (aW1 m c) (aB1 m c) (aW2 m c) k q := by
  refine (zBlk_apply m c (k.val / 400) (by omega) ⟨k.val % 400, Nat.mod_lt _ (by omega)⟩ ⟨q.val, q.isLt⟩).trans ?_
  exact congrArg (fun r => Cert.Gcn.proj (aX m c) (aAdj m c) (aW1 m c) (aB1 m c) (aW2 m c) r q)
    (Fin.ext (Nat.div_add_mod k.val 400))

/-- The output block of a phase-0 point: the first layer's rows 400 · t … 400 · t + 399. -/
theorem outAt_phase0_apply (c : Dev nD) (t : Fin cfg0.N) (h : t.val < 25) (p : Fin 400) (q : Fin 16) :
    outAt (F := Ideal) m c t (ix3 0 p q)
      = Cert.Gcn.proj (aX m c) (aAdj m c) (aW1 m c) (aB1 m c) (aW2 m c) ⟨400 * t.val + p.val, by omega⟩ q := by
  rw [outAt_phase0 m c t h]
  refine (Pay.pay4_apply _ _ _ _ p q).trans ?_
  unfold Cert.Gcn.proj
  exact projRow_congr
    (funext fun l => blkAdj m c t p l _ (by show 400 * t.val + p.val = 400 * (t.val % 25) + p.val; rw [Nat.mod_eq_of_lt h]))
    (funext fun l => funext fun j => yAll_apply m c l j)
    (funext fun j => blkB1 m c t j)
    (funext fun j => funext fun q' => blkW2 m c t j q') q

/-- The output block of a phase-1 point: the result's rows 400 · (t − 25) … 400 · (t − 25) + 399. -/
theorem outAt_phase1_apply (c : Dev nD) (t : Fin cfg0.N) (h : 25 ≤ t.val) (p : Fin 400) (q : Fin 16) :
    outAt (F := Ideal) m c t (ix3 0 p q)
      = Cert.Gcn.out (aX m c) (aAdj m c) (aW1 m c) (aB1 m c) (aW2 m c) (aB2 m c)
          ⟨400 * (t.val - 25) + p.val, by have := lt_of_lt_of_eq t.isLt N50; omega⟩ q := by
  rw [outAt_phase1 m c t (by omega)]
  refine (Pay.pay5_apply _ _ _ p q).trans ?_
  unfold Cert.Gcn.out Cert.Gcn.act
  refine congrArg (fun g => Cert.Gcn.lsmRow g q) (actRow_congr ?_ ?_ ?_)
  · exact funext fun l => blkAdj m c t p l _ (by
      show 400 * (t.val - 25) + p.val = 400 * (t.val % 25) + p.val
      have := lt_of_lt_of_eq t.isLt N50; omega)
  · exact funext fun k => funext fun q' => zAll_apply m c k q'
  · exact funext fun q' => blkB2 m c t q'

end Cert.KernelIdeal.Val

end
-- ==== Proof.KernelValue.lean ====
/-
  The kernel's result array. The pipeline writes the output block of point t back to block (t / 25, t % 25) of a
  2 × 10000 × 16 array: plane 0 collects the first layer's blocks, plane 1 the result's. Every index of the array lies in
  exactly the block of one point, so after the region the array is one function of its index; the host then takes plane 1
  and drops the unit axis, which leaves the specification's result.
-/
import proofs.«125999_g90108413870386_cont_sun_c4_37_7_alg».proof.Proof.KernelBlocks

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-! ## The output array as one function of its index -/

/-- The output array after the region: plane 0 is the first layer, plane 1 the result. -/
def G6 (c : Dev nD) : Vec Ideal S2x10000x16 .f32 := fun y =>
  if (y 0).val = 0 then Cert.Gcn.proj (aX m c) (aAdj m c) (aW1 m c) (aB1 m c) (aW2 m c) (y 1) (y 2)
  else Cert.Gcn.out (aX m c) (aAdj m c) (aW1 m c) (aB1 m c) (aW2 m c) (aB2 m c) (y 1) (y 2)

/-- Plane 0 at row `r`, class `q`. -/
theorem G6_plane0 (c : Dev nD) (y : S2x10000x16.Idx) (r : Fin 10000) (q : Fin 16) (h0 : (y 0).val = 0)
    (h1 : (y 1).val = r.val) (h2 : (y 2).val = q.val) :
    G6 m c y = Cert.Gcn.proj (aX m c) (aAdj m c) (aW1 m c) (aB1 m c) (aW2 m c) r q := by
  unfold G6
  rw [if_pos h0]
  exact congrArg₂ _ (Fin.ext h1) (Fin.ext h2)

/-- Plane 1 at row `r`, class `q`. -/
theorem G6_plane1 (c : Dev nD) (y : S2x10000x16.Idx) (r : Fin 10000) (q : Fin 16) (h0 : (y 0).val ≠ 0)
    (h1 : (y 1).val = r.val) (h2 : (y 2).val = q.val) :
    G6 m c y = Cert.Gcn.out (aX m c) (aAdj m c) (aW1 m c) (aB1 m c) (aW2 m c) (aB2 m c) r q := by
  unfold G6
  rw [if_neg h0]
  exact congrArg₂ _ (Fin.ext h1) (Fin.ext h2)

/-- The output window's block index at point `t`: plane `t / 25`, row block `t % 25`, the one class block. -/
theorem idx_facts6 : ∀ t : Fin cfg0.N, win0_6.index t (0 : Fin 3) = t.val / 25 ∧ win0_6.index t (1 : Fin 3) = t.val % 25
    ∧ win0_6.index t (2 : Fin 3) = 0 :=
  (by decide +kernel : ∀ t : Fin grid0.N, _)

/-- The output block of point `t` at an index is `G6` at plane `t / 25`, row `400 · (t % 25)` plus the block's row. -/
theorem outAt_eq_G6 (c : Dev nD) (t : Fin cfg0.N) (y : S1x400x16.Idx) (k : S2x10000x16.Idx)
    (h0 : (k 0).val = t.val / 25 * 1 + (y 0).val) (h1 : (k 1).val = t.val % 25 * 400 + (y 1).val)
    (h2 : (k 2).val = 0 * 16 + (y 2).val) :
    outAt (F := Ideal) m c t y = G6 m c k := by
  have hN : t.val < 50 := lt_of_lt_of_eq t.isLt N50
  obtain ⟨z, p, q, rfl⟩ : ∃ (z : Fin 1) (p : Fin 400) (q : Fin 16), y = ix3 z p q := ⟨y 0, y 1, y 2, eq_ix3 y⟩
  obtain rfl : z = 0 := Subsingleton.elim _ _
  have hz : ((ix3 (0 : Fin 1) p q : S1x400x16.Idx) 0).val = 0 := rfl
  have hp : ((ix3 (0 : Fin 1) p q : S1x400x16.Idx) 1).val = p.val := rfl
  have hq : ((ix3 (0 : Fin 1) p q : S1x400x16.Idx) 2).val = q.val := rfl
  rw [hz] at h0; rw [hp] at h1; rw [hq] at h2
  by_cases h : t.val < 25
  · rw [outAt_phase0_apply m c t h p q]
    exact (G6_plane0 m c k _ q (by omega) (by show (k 1).val = 400 * t.val + p.val; omega) (by omega)).symm
  · rw [outAt_phase1_apply m c t (by omega) p q]
    exact (G6_plane1 m c k _ q (by omega) (by show (k 1).val = 400 * (t.val - 25) + p.val; omega) (by omega)).symm

/-- What point `t` writes back is its block of `G6`. -/
theorem flushed6_eq (c : Dev nD) (t : Fin cfg0.N) :
    (dats (F := Ideal) m 0 c).flushed 6 t = ((cfg0.win 6).blk t).view.read (Elt Ideal) (G6 m c) := by
  show (cfg0.win 6).cut (grid0.coords t) ((dats m 0 c).after 6 t) = _
  rw [after_6]
  obtain ⟨e0, e1, e2⟩ := idx_facts6 t
  funext y
  show outAt (F := Ideal) m c t y = G6 m c (((cfg0.win 6).blk t).view.emb y)
  refine outAt_eq_G6 m c t y _ ?_ ?_ ?_
  · show win0_6.index t (0 : Fin 3) * 1 + 1 * (y 0).val = _
    rw [e0]; omega
  · show win0_6.index t (1 : Fin 3) * 400 + 1 * (y 1).val = _
    rw [e1]; omega
  · show win0_6.index t (2 : Fin 3) * 16 + 1 * (y 2).val = _
    rw [e2]; omega

/-! ## The blocks tile the array -/

/-- An index of the array is in point `t`'s block iff each coordinate is in the block's range on its axis. -/
theorem mem_blk6 (t : Fin cfg0.N) (i : S2x10000x16.Idx) :
    i ∈ ((cfg0.win 6).blk t).view.set ↔ ∀ a : Fin 3, win0_6.index t a * S1x400x16.size a ≤ (i a).val
      ∧ (i a).val < win0_6.index t a * S1x400x16.size a + S1x400x16.size a := by
  show i ∈ ((View.whole main_v2).slice (win0_6.rect t)).set ↔ _
  rw [View.set_slice_whole, Rect.mem_set_unit]
  exact Iff.rfl

/-- Every index `(s, r, q)` of the array lies in the block of point `25 · s + r / 400`, which is written back. -/
theorem cover6 (i : S2x10000x16.Idx) :
    ∃ t : Fin cfg0.N, (cfg0.win 6).flush t = true ∧ i ∈ ((cfg0.win 6).blk t).view.set := by
  have h0 : (i 0).val < 2 := (i 0).isLt
  have h1 : (i 1).val < 10000 := (i 1).isLt
  have h2 : (i 2).val < 16 := (i 2).isLt
  have hk : 25 * (i 0).val + (i 1).val / 400 < 50 := by omega
  refine ⟨pt (25 * (i 0).val + (i 1).val / 400) hk, flush0_6 _, ?_⟩
  rw [mem_blk6]
  obtain ⟨e0, e1, e2⟩ := idx_facts6 (pt (25 * (i 0).val + (i 1).val / 400) hk)
  have e0' : win0_6.index (pt (25 * (i 0).val + (i 1).val / 400) hk) (0 : Fin 3) = (25 * (i 0).val + (i 1).val / 400) / 25 := e0
  have e1' : win0_6.index (pt (25 * (i 0).val + (i 1).val / 400) hk) (1 : Fin 3) = (25 * (i 0).val + (i 1).val / 400) % 25 := e1
  intro a
  match a with
  | ⟨0, _⟩ =>
    show win0_6.index _ (0 : Fin 3) * 1 ≤ (i 0).val ∧ (i 0).val < win0_6.index _ (0 : Fin 3) * 1 + 1
    rw [e0']; omega
  | ⟨1, _⟩ =>
    show win0_6.index _ (1 : Fin 3) * 400 ≤ (i 1).val ∧ (i 1).val < win0_6.index _ (1 : Fin 3) * 400 + 400
    rw [e1']; omega
  | ⟨2, _⟩ =>
    show win0_6.index _ (2 : Fin 3) * 16 ≤ (i 2).val ∧ (i 2).val < win0_6.index _ (2 : Fin 3) * 16 + 16
    rw [e2]; omega

/-- So the output array after the region is `G6`. -/
theorem final6 (c : Dev nD) : (dats (F := Ideal) m 0 c).arrAt 6 cfg0.N = G6 m c :=
  (dats (F := Ideal) m 0 c).arrAt_eq_of_cover 6 (G6 m c) (fun t _ => flushed6_eq m c t) cover6

/-! ## The host's closing operations -/

/-- Plane 1 of a 2 × 10000 × 16 array with its unit axis dropped, at row `r`, class `q`. -/
theorem plane1_apply (A : S2x10000x16.Idx → EReal) (hs : S2x10000x16.Slices ![1, 0, 0] S1x10000x16)
    (hc : S1x10000x16.ShapeCasts S10000x16) (r : Fin 10000) (q : Fin 16) :
    shapeCast S10000x16 (extractStridedSlice S1x10000x16 ![1, 0, 0] A hs) hc (ix2 r q) = A (ix3 (1 : Fin 2) r q) := by
  refine (shapeCast_dropUnit_apply ![10000, 16] _ hc (ix2 r q)).trans ?_
  refine extractStridedSlice_apply ![1, 0, 0] A hs _ (ix3 (1 : Fin 2) r q) fun a => ?_
  match a with
  | ⟨0, _⟩ => rfl
  | ⟨1, _⟩ => show r.val = 0 + r.val; omega
  | ⟨2, _⟩ => show q.val = 0 + q.val; omega

/-- After the region and the host's two closing operations, the result buffer holds the specification's result of the
    six argument arrays. -/
theorem result_eq (c : Dev nD) :
    Pipeline.afterTail₀ cfgs (dats (F := Ideal) m) 0 (V0 m) [hostOps1] c main_v4
      = Cert.Gcn.result (aX m c) (aAdj m c) (aW1 m c) (aB1 m c) (aW2 m c) (aB2 m c) := by
  unfold Pipeline.afterTail₀
  show StableHlo.after hostOps1 _ (Proc.devRef .tc main_v4) = _
  after_results
  have hA : Pipeline.withArrays (cfgs 0).spec c (V0 m c) (fun w => (dats (F := Ideal) m 0 c).arrAt w (cfgs 0).N)
      (Proc.devRef .tc main_v2) = G6 m c :=
    (Pipeline.withArrays_arr spec0 launch0.win.arr_inj c _ _ 6).trans (final6 m c)
  rw [hA]
  funext i
  obtain ⟨r, q, rfl⟩ : ∃ (r : Fin 10000) (q : Fin 16), i = ix2 r q := ⟨i 0, i 1, eq_ix2 i⟩
  rw [Cert.Gcn.result_apply]
  refine Eq.trans ?_ (G6_plane1 m c (ix3 (1 : Fin 2) r q) r q (by show ((1 : Fin 2) : Nat) ≠ 0; decide) rfl rfl)
  exact plane1_apply (G6 m c) _ _ r q

end Cert.KernelIdeal.Val

end
-- ==== Proof.KernelRun.lean ====
/-
  The idealized kernel's run with its result named: every weakly fair execution terminates, the result buffer holds the
  specification's result of the six argument arrays, and the argument arrays end as they were launched. The result is
  read off the run's post through the host's two closing operations; an argument array that a window stages is read off
  the pipeline's array, one that no window stages off the buffers the region leaves alone.
-/
import proofs.«125999_g90108413870386_cont_sun_c4_37_7_alg».proof.Proof.KIBody
import proofs.«125999_g90108413870386_cont_sun_c4_37_7_alg».proof.Proof.KernelValue

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

theorem run_result : θ_run defs (onTc (τ := τ) (main (F := Ideal))) ⟨m, fun _ => 0, ρ⟩ (fun r => ∀ c : Dev nD,
      r.2.mem ((c.tc : Thread nD τ).loc main_v4) = Cert.Gcn.result (aX m c) (aAdj m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main (F := Ideal) m ρ)

end Cert.KernelIdeal.Val

end
-- ==== Proof.RefIsSpec.lean ====
/-
  The reference's result, read index by index, is the two-layer graph convolution's row-wise log-softmax:
  each of its operations is read at an index, the two products along the adjacency's rows as sums over the row, and the
  composed term is the specification's `result`.
-/
import proofs.«125999_g90108413870386_cont_sun_c4_37_7_alg».proof.Proof.RefRead
import proofs.«125999_g90108413870386_cont_sun_c4_37_7_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefSpec

open Cert.ReferenceIdeal Idealize.ShloMosaic Idealize.ShloMosaic.ValueIdx
open Cert.ReferenceIdeal.ReadP

section Stages

variable (x0 : (⟨S10000x128, .f32⟩ : BufTy).Contents (Elt Ideal)) (x1 : (⟨S10000x10000, .f32⟩ : BufTy).Contents (Elt Ideal))
  (x2 : (⟨S128x32, .f32⟩ : BufTy).Contents (Elt Ideal)) (x3 : (⟨S32, .f32⟩ : BufTy).Contents (Elt Ideal))
  (x4 : (⟨S32x16, .f32⟩ : BufTy).Contents (Elt Ideal)) (x5 : (⟨S16, .f32⟩ : BufTy).Contents (Elt Ideal))

/-! ## The first layer -/

/-- The first product at node `l`, hidden unit `j`: row `l` of the features against column `j` of the first weights. -/
theorem feat_at (l : Fin 10000) (j : Fin 32) :
    val_main_v0 (F := Ideal) x0 x2 (ix2 l j) = Cert.Gcn.feat x0 x2 l j := by
  rw [val_main_v0_apply]
  unfold Cert.Gcn.feat
  refine Finset.sum_congr rfl fun i _ => ?_
  have el : lidx_main_v0 (ix2 l j) i = ix2 l i :=
    funext fun a => Fin.ext (by match a with | ⟨0, _⟩ => rfl | ⟨1, _⟩ => rfl)
  have er : ridx_main_v0 (ix2 l j) i = ix2 i j :=
    funext fun a => Fin.ext (by match a with | ⟨0, _⟩ => rfl | ⟨1, _⟩ => rfl)
  rw [el, er]

/-- The rectified first layer at node `k`, hidden unit `j`: row `k` of the adjacency against column `j` of the
    transformed features, plus the bias, cut at zero. -/
theorem hidden_at (k : Fin 10000) (j : Fin 32) :
    val_main_v5 (F := Ideal) x0 x1 x2 x3 (ix2 k j)
      = max ((∑ l : Fin 10000, x1 (ix2 k l) * Cert.Gcn.feat x0 x2 l j) + x3 (ix1 j)) Cert.Gcn.zeroW := by
  rw [val_main_v5_apply, val_main_v4_apply, val_main_v1_apply, val_main_v3_apply, val_main_v2_apply,
    val_main_call0_v0_apply, val_main_call0_cst_apply]
  simp only [Ideal.maximumf_def, Ideal.addf_def, Ideal.ofBits_def]
  have eb : idx_main_v2 (idx_main_v3 (ix2 k j)) = ix1 j :=
    funext fun a => Fin.ext (by match a with | ⟨0, _⟩ => rfl)
  rw [eb]
  refine congrArg (fun s => max (s + x3 (ix1 j)) Cert.Gcn.zeroW) (Finset.sum_congr rfl fun l _ => ?_)
  have el : lidx_main_v1 (ix2 k j) l = ix2 k l :=
    funext fun a => Fin.ext (by match a with | ⟨0, _⟩ => rfl | ⟨1, _⟩ => rfl)
  have er : ridx_main_v1 (ix2 k j) l = ix2 l j :=
    funext fun a => Fin.ext (by match a with | ⟨0, _⟩ => rfl | ⟨1, _⟩ => rfl)
  rw [el, er, feat_at]

/-- The first layer's projection at node `k`, class `q`. -/
theorem proj_at (k : Fin 10000) (q : Fin 16) :
    val_main_v6 (F := Ideal) x0 x1 x2 x3 x4 (ix2 k q) = Cert.Gcn.proj x0 x1 x2 x3 x4 k q := by
  rw [val_main_v6_apply]
  unfold Cert.Gcn.proj Cert.Gcn.projRow
  refine Finset.sum_congr rfl fun j _ => ?_
  have el : lidx_main_v6 (ix2 k q) j = ix2 k j :=
    funext fun a => Fin.ext (by match a with | ⟨0, _⟩ => rfl | ⟨1, _⟩ => rfl)
  have er : ridx_main_v6 (ix2 k q) j = ix2 j q :=
    funext fun a => Fin.ext (by match a with | ⟨0, _⟩ => rfl | ⟨1, _⟩ => rfl)
  rw [el, er, hidden_at]

/-! ## The second layer -/

/-- The rectified second layer at node `r`, class `q`: row `r` of the adjacency against column `q` of the
    projection, plus the bias, cut at zero. -/
theorem act_at (r : Fin 10000) (q : Fin 16) :
    val_main_v11 (F := Ideal) x0 x1 x2 x3 x4 x5 (ix2 r q) = Cert.Gcn.act x0 x1 x2 x3 x4 x5 r q := by
  rw [val_main_v11_apply, val_main_v10_apply, val_main_v7_apply, val_main_v9_apply, val_main_v8_apply,
    val_main_call1_v0_apply, val_main_call1_cst_apply]
  simp only [Ideal.maximumf_def, Ideal.addf_def, Ideal.ofBits_def]
  unfold Cert.Gcn.act Cert.Gcn.actRow
  have eb : idx_main_v8 (idx_main_v9 (ix2 r q)) = ix1 q :=
    funext fun a => Fin.ext (by match a with | ⟨0, _⟩ => rfl)
  rw [eb]
  refine congrArg (fun s => max (s + x5 (ix1 q)) Cert.Gcn.zeroW) (Finset.sum_congr rfl fun k _ => ?_)
  have el : lidx_main_v7 (ix2 r q) k = ix2 r k :=
    funext fun a => Fin.ext (by match a with | ⟨0, _⟩ => rfl | ⟨1, _⟩ => rfl)
  have er : ridx_main_v7 (ix2 r q) k = ix2 k q :=
    funext fun a => Fin.ext (by match a with | ⟨0, _⟩ => rfl | ⟨1, _⟩ => rfl)
  rw [el, er, proj_at]

/-! ## The row-wise log-softmax -/

/-- The f32 −∞ word is the least extended real. -/
theorem negInfW_eq_bot : (Ideal.ofBits .f32 0xFF800000#32 : EReal) = ⊥ := by
  simp [Ideal.ofBits, Ideal.ieee]

/-- Node `r` with class `k` put back on the reduced axis is `(r, k)`. -/
theorem lift_row (h : S10000x16.Reduces [1] S10000) (r : Fin 10000) (k : Fin (S10000x16.size 1)) :
    h.lift (ix1 r) k = ix2 r (⟨k.val, k.isLt⟩ : Fin 16) := by
  funext c; apply Fin.ext
  match c with
  | ⟨0, _⟩ => rfl
  | ⟨1, _⟩ => rfl

/-- The reduce with a maximum body over the classes, at node `r`, is the row's maximum folded from −∞. -/
theorem rowMax_at (r : Fin 10000) :
    val_main_call2_v0 (F := Ideal) x0 x1 x2 x3 x4 x5 (ix1 r) = Cert.Gcn.rowMax (Cert.Gcn.act x0 x1 x2 x3 x4 x5 r) := by
  have h : S10000x16.Reduces [1] S10000 := by decide
  unfold val_main_call2_v0
  rw [Host.reduce_eq_fold_single FloatOps.maximumf _ _ Gen.reducesTo_S10000x16_S10000_d1 h Gen.h_S_]
  unfold Cert.Gcn.rowMax
  have hf : (val_main_v11 (F := Ideal) x0 x1 x2 x3 x4 x5 ∘ h.lift (ix1 r)) = Cert.Gcn.act x0 x1 x2 x3 x4 x5 r :=
    funext fun k => by
      show val_main_v11 (F := Ideal) x0 x1 x2 x3 x4 x5 (h.lift (ix1 r) k) = _
      rw [lift_row, act_at]
      rfl
  rw [hf]
  rfl

/-- The reference's guarded maximum `max (−∞) M` at node `r` is the row's maximum. -/
theorem rowMax_guard_at (r : Fin 10000) :
    val_main_call2_v2 (F := Ideal) x0 x1 x2 x3 x4 x5 (ix1 r) = Cert.Gcn.rowMax (Cert.Gcn.act x0 x1 x2 x3 x4 x5 r) := by
  rw [val_main_call2_v2_apply, val_main_call2_v1_apply, val_main_call2_cst_0_apply, rowMax_at]
  simp only [Ideal.maximumf_def, Ideal.ofBits_def]
  rw [negInfW_eq_bot]
  exact max_eq_right bot_le

/-- The shifted row at node `r`, class `q`: the second layer less the row's maximum. -/
theorem shifted_at (r : Fin 10000) (q : Fin 16) :
    val_main_call2_v5 (F := Ideal) x0 x1 x2 x3 x4 x5 (ix2 r q)
      = Cert.Gcn.act x0 x1 x2 x3 x4 x5 r q - Cert.Gcn.rowMax (Cert.Gcn.act x0 x1 x2 x3 x4 x5 r) := by
  rw [val_main_call2_v5_apply, val_main_call2_v4_apply, val_main_call2_v3_apply, act_at]
  have e : idx_main_call2_v3 (idx_main_call2_v4 (ix2 r q)) = ix1 r :=
    funext fun a => Fin.ext (by match a with | ⟨0, _⟩ => rfl)
  rw [e, rowMax_guard_at]
  rfl

/-- The sum of the shifted row's exponentials at node `r` (the float sum starts from the zero word, which is 0). -/
theorem expSum_at (r : Fin 10000) :
    val_main_call2_v7 (F := Ideal) x0 x1 x2 x3 x4 x5 (ix1 r)
      = ∑ q' : Fin 16, Ideal.exp (Cert.Gcn.act x0 x1 x2 x3 x4 x5 r q' - Cert.Gcn.rowMax (Cert.Gcn.act x0 x1 x2 x3 x4 x5 r)) := by
  rw [val_main_call2_v7_apply, val_main_call2_cst_1_apply]
  simp only [Ideal.ofBits_def, Ideal.ofBits_zero_f32, zero_add]
  refine Finset.sum_congr rfl fun k _ => ?_
  have e : idx_main_call2_v7 (ix1 r) k = ix2 r k :=
    funext fun a => Fin.ext (by match a with | ⟨0, _⟩ => rfl | ⟨1, _⟩ => rfl)
  rw [e, val_main_call2_v6_apply, shifted_at]
  rfl

end Stages

/-- The reference's last stage, as a function of the six arguments, is the specification. -/
theorem ref_is_spec (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) :
    Cert.ReferenceIdeal.ReadP.val_main_v12 (F := Ideal) x0 x1 x2 x3 x4 x5 = Cert.Gcn.result x0 x1 x2 x3 x4 x5 := by
  funext i
  obtain ⟨r, q, rfl⟩ : ∃ (r : Fin 10000) (q : Fin 16), i = ix2 r q := ⟨i 0, i 1, eq_ix2 i⟩
  rw [Cert.Gcn.result_apply, val_main_v12_apply, val_main_call2_v10_apply, val_main_call2_v9_apply,
    val_main_call2_v8_apply, shifted_at]
  have e : idx_main_call2_v8 (idx_main_call2_v10 (ix2 r q)) = ix1 r :=
    funext fun a => Fin.ext (by match a with | ⟨0, _⟩ => rfl)
  rw [e, expSum_at]
  rfl

end Cert.ReferenceIdeal.RefSpec

end
-- ==== Proof.lean ====
/-
  A fused two-layer graph convolution with a row-wise log-softmax against its whole-array reference.

  The kernel runs a 2 × 25 grid over 400-row blocks of the 10000 × 10000 adjacency. Phase 0 computes the feature
  transform `x · W1` once, keeps it, and for each row block computes `max (adj_blk · (x · W1) + b1, 0) · W2` into its 400
  rows of a 10000 × 16 buffer that it also keeps; phase 1 reads that whole buffer and for each row block computes
  `max (adj_blk · z + b2, 0)` and its log-softmax, shifted by the row's maximum. The reference computes the same
  expression on whole arrays. On the extended reals every entry of either result is the SAME nested finite sum: the
  products are grouped the same way on both sides and only the tiling differs, so no law beyond reading each operation
  at an index is needed and the inputs' finiteness is never used.

  The three frames: the word-level kernel and the idealized kernel run through the pipeline's frame with the carried
  buffers described point by point (the same text at either float instance); the reference's frame is its run with the
  result dropped. Nothing was rewritten by the idealization, so `preserves` is `True`.
-/
import proofs.«125999_g90108413870386_cont_sun_c4_37_7_alg».proof.Defs
import proofs.«125999_g90108413870386_cont_sun_c4_37_7_alg».proof.Proof.Gen.Kernel
import proofs.«125999_g90108413870386_cont_sun_c4_37_7_alg».proof.Proof.Gen.KernelIdeal
import proofs.«125999_g90108413870386_cont_sun_c4_37_7_alg».proof.Proof.Gen.ReferenceIdeal
import proofs.«125999_g90108413870386_cont_sun_c4_37_7_alg».proof.Proof.Gen.Pre_finite_inputs
import proofs.«125999_g90108413870386_cont_sun_c4_37_7_alg».proof.Proof.KBody
import proofs.«125999_g90108413870386_cont_sun_c4_37_7_alg».proof.Proof.KernelRun
import proofs.«125999_g90108413870386_cont_sun_c4_37_7_alg».proof.Proof.RefIsSpec
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- Both programs end with the specification's result of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v12_eq, Cert.ReferenceIdeal.RefSpec.ref_is_spec,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
